-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1433 : Shape := ⟨2, ![4096, 1433]⟩
abbrev S4096x4096 : Shape := ⟨2, ![4096, 4096]⟩
abbrev S1680x128 : Shape := ⟨2, ![1680, 128]⟩
abbrev S_ : Shape := ⟨0, ![]⟩

class Facts : Prop where
  bcast_S_S4096x1433 : S_.BroadcastsInDim S4096x1433 (![] : Fin 0 → Fin S4096x1433.rank)
  reducesTo_S4096x1433_S_d0_1 : S4096x1433.ReducesTo [0, 1] S_
  h_S_ : 0 < S_.numel
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  bcast_S_S1680x128 : S_.BroadcastsInDim S1680x128 (![] : Fin 0 → Fin S1680x128.rank)
  reducesTo_S1680x128_S_d0_1 : S1680x128.ReducesTo [0, 1] S_

variable [Facts]

def fn {F : FTy → Type} [FloatOps F] (main_arg0 : FVec F S4096x1433 .f32) (main_arg1 : FVec F S4096x4096 .bf16) (main_arg2 : FVec F S1680x128 .f32) : IVec S_ 1 :=
  let main_v0 : FVec F S4096x1433 .f32 := Host.absf main_arg0
  let main_cst : FVec F S_ .f32 := constant S_ .f32 0x7F800000#32
  let main_v1 : FVec F S4096x1433 .f32 := broadcastInDim S4096x1433 ![] bcast_S_S4096x1433 main_cst
  let main_v2 : IVec S4096x1433 1 := cmpf .olt main_v0 main_v1
  let main_c : IVec S_ 1 := constantI S_ 1 1#1
  let main_v3 : IVec S_ 1 := (fun x v => Host.reduce IntOp.andi x v reducesTo_S4096x1433_S_d0_1 h_S_) main_v2 main_c
  let main_v4 : FVec F S4096x4096 .f32 := (extf .f32 · bitsLt_bf16_f32) main_arg1
  let main_v5 : FVec F S4096x4096 .f32 := Host.absf main_v4
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v3 main_v8
  let main_v10 : FVec F S1680x128 .f32 := Host.absf main_arg2
  let main_cst_2 : FVec F S_ .f32 := constant S_ .f32 0x7F800000#32
  let main_v11 : FVec F S1680x128 .f32 := broadcastInDim S1680x128 ![] bcast_S_S1680x128 main_cst_2
  let main_v12 : IVec S1680x128 1 := cmpf .olt main_v10 main_v11
  let main_c_3 : IVec S_ 1 := constantI S_ 1 1#1
  let main_v13 : IVec S_ 1 := (fun x v => Host.reduce IntOp.andi x v reducesTo_S1680x128_S_d0_1 h_S_) main_v12 main_c_3
  let main_v14 : IVec S_ 1 := andi main_v9 main_v13
  main_v14
-- ==== Kernel.lean ====
abbrev S4096x1433 : Shape := ⟨2, ![4096, 1433]⟩
abbrev S4096x4096 : Shape := ⟨2, ![4096, 4096]⟩
abbrev S1680x128 : Shape := ⟨2, ![1680, 128]⟩
abbrev S4096x128 : Shape := ⟨2, ![4096, 128]⟩
abbrev S4096x7 : Shape := ⟨2, ![4096, 7]⟩
abbrev S512x1433 : Shape := ⟨2, ![512, 1433]⟩
abbrev S512x128 : Shape := ⟨2, ![512, 128]⟩
abbrev S1433x128 : Shape := ⟨2, ![1433, 128]⟩
abbrev S512x4096 : Shape := ⟨2, ![512, 4096]⟩
abbrev S1x128 : Shape := ⟨2, ![1, 128]⟩
abbrev S128x128 : Shape := ⟨2, ![128, 128]⟩
abbrev S512 : Shape := ⟨1, ![512]⟩
abbrev S512x1 : Shape := ⟨2, ![512, 1]⟩

abbrev nBuf : Space → Nat
  | .hbm => 7
  | .vmem => 17
  | .smem => 0
  | _ => 0

abbrev bufTy : (tb : Table) → Fin (tcTables nBuf tb) → BufTy
  | .hbm, ⟨0, _⟩ => ⟨S4096x1433, .f32⟩
  | .hbm, ⟨1, _⟩ => ⟨S4096x4096, .bf16⟩
  | .hbm, ⟨2, _⟩ => ⟨S1680x128, .f32⟩
  | .hbm, ⟨3, _⟩ => ⟨S4096x128, .bf16⟩
  | .hbm, ⟨4, _⟩ => ⟨S4096x128, .bf16⟩
  | .hbm, ⟨5, _⟩ => ⟨S4096x128, .f32⟩
  | .hbm, ⟨6, _⟩ => ⟨S4096x7, .f32⟩
  | .local _ .vmem, ⟨0, _⟩ => ⟨S512x1433, .f32⟩
  | .local _ .vmem, ⟨1, _⟩ => ⟨S512x1433, .f32⟩
  | .local _ .vmem, ⟨2, _⟩ => ⟨S1680x128, .f32⟩
  | .local _ .vmem, ⟨3, _⟩ => ⟨S512x128, .bf16⟩
  | .local _ .vmem, ⟨4, _⟩ => ⟨S512x128, .bf16⟩
  | .local _ .vmem, ⟨5, _⟩ => ⟨S512x4096, .bf16⟩
  | .local _ .vmem, ⟨6, _⟩ => ⟨S512x4096, .bf16⟩
  | .local _ .vmem, ⟨7, _⟩ => ⟨S4096x128, .bf16⟩
  | .local _ .vmem, ⟨8, _⟩ => ⟨S1680x128, .f32⟩
  | .local _ .vmem, ⟨9, _⟩ => ⟨S512x128, .bf16⟩
  | .local _ .vmem, ⟨10, _⟩ => ⟨S512x128, .bf16⟩
  | .local _ .vmem, ⟨11, _⟩ => ⟨S512x4096, .bf16⟩
  | .local _ .vmem, ⟨12, _⟩ => ⟨S512x4096, .bf16⟩
  | .local _ .vmem, ⟨13, _⟩ => ⟨S4096x128, .bf16⟩
  | .local _ .vmem, ⟨14, _⟩ => ⟨S1680x128, .f32⟩
  | .local _ .vmem, ⟨15, _⟩ => ⟨S512x128, .f32⟩
  | .local _ .vmem, ⟨16, _⟩ => ⟨S512x128, .f32⟩
  | _, _ => ⟨S4096x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1680x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1680x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1680x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S4096x128_S4096x7_0_0 : S4096x128.Slices ![0, 0] S4096x7
  inb_S1680x128_S1433x128_0_0 : ∀ a, (![0, 0] : Fin 2 → Nat) a + S1433x128.size a ≤ S1680x128.size a
  h_S1433x128 : 0 < S1433x128.numel
  bitsLt_bf16_f32 : FTy.bits .bf16 < FTy.bits .f32
  inb_S512x1433_S512x1433_0_0 : ∀ a, (![0, 0] : Fin 2 → Nat) a + S512x1433.size a ≤ S512x1433.size a
  h_S512x1433 : 0 < S512x1433.numel
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S1680x128_S1x128_1536_0 : ∀ a, (![1536, 0] : Fin 2 → Nat) a + S1x128.size a ≤ S1680x128.size a
  h_S1x128 : 0 < S1x128.numel
  inb_S1680x128_S128x128_1544_0 : ∀ a, (![1544, 0] : Fin 2 → Nat) a + S128x128.size a ≤ S1680x128.size a
  h_S128x128 : 0 < S128x128.numel
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S512x128 : S1x128.Broadcasts S512x128
  inb_S1680x128_S1x128_1672_0 : ∀ a, (![1672, 0] : Fin 2 → Nat) a + S1x128.size a ≤ S1680x128.size a
  reduces_S512x128_S512 : S512x128.Reduces [1] S512
  shapeCasts_S512_S512x1 : S512.ShapeCasts S512x1
  broadcasts_S512x1_S512x128 : S512x1.Broadcasts S512x128
  dot_S512x1433_S1433x128_S512x128_1_0_0_1_n_n_wf : DotDims.WF S512x1433 S1433x128 S512x128 [1] [0] [0] [1] [] []
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1433.size a ≤ S4096x1433.size a
  hwx0_0 : ∀ i : grid0.Coords, EltTy.bits .f32 = 32 ∨ (Rect.block (s := S4096x1433) S512x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1680x128.size a ≤ S1680x128.size a
  hwx0_1 : ∀ i : grid0.Coords, EltTy.bits .f32 = 32 ∨ (Rect.block (s := S1680x128) S1680x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1680x128.size a ≤ S1680x128.size a
  hwx1_2 : ∀ i : grid1.Coords, EltTy.bits .f32 = 32 ∨ (Rect.block (s := S1680x128) S1680x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .bf16 = 32 ∨ (Rect.block (s := S4096x128) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .bf16 = 32 ∨ (Rect.block (s := S4096x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1680x128.size a ≤ S1680x128.size a
  hwx2_2 : ∀ i : grid2.Coords, EltTy.bits .f32 = 32 ∨ (Rect.block (s := S1680x128) S1680x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)

variable [Facts₀]

def dot_S512x1433_S1433x128_S512x128_1_0_0_1_n_n : DotDims S512x1433 S1433x128 S512x128 where
  lhsContracting := [1]
  rhsContracting := [0]
  lhsNonContracting := [0]
  rhsNonContracting := [1]
  lhsBatch := []
  rhsBatch := []
  wf := dot_S512x1433_S1433x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1680x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1680x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1680x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1433 : Shape := ⟨2, ![4096, 1433]⟩
abbrev S4096x4096 : Shape := ⟨2, ![4096, 4096]⟩
abbrev S1680x128 : Shape := ⟨2, ![1680, 128]⟩
abbrev S_ : Shape := ⟨0, ![]⟩
abbrev S4096x1536 : Shape := ⟨2, ![4096, 1536]⟩
abbrev S1 : Shape := ⟨1, ![1]⟩
abbrev S4096x128 : Shape := ⟨2, ![4096, 128]⟩
abbrev S4096x7 : Shape := ⟨2, ![4096, 7]⟩
abbrev S1024x4096 : Shape := ⟨2, ![1024, 4096]⟩
abbrev S1024x128 : Shape := ⟨2, ![1024, 128]⟩
abbrev S1536x128 : Shape := ⟨2, ![1536, 128]⟩
abbrev S1x128 : Shape := ⟨2, ![1, 128]⟩
abbrev S128x128 : Shape := ⟨2, ![128, 128]⟩
abbrev S1024 : Shape := ⟨1, ![1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x1433, .f32⟩
  | .hbm, ⟨1, _⟩ => ⟨S4096x4096, .bf16⟩
  | .hbm, ⟨2, _⟩ => ⟨S1680x128, .f32⟩
  | .hbm, ⟨3, _⟩ => ⟨S_, .bf16⟩
  | .hbm, ⟨4, _⟩ => ⟨S4096x1536, .bf16⟩
  | .hbm, ⟨5, _⟩ => ⟨S4096x1433, .bf16⟩
  | .hbm, ⟨6, _⟩ => ⟨S_, .i32⟩
  | .hbm, ⟨7, _⟩ => ⟨S1, .i32⟩
  | .hbm, ⟨8, _⟩ => ⟨S4096x1536, .bf16⟩
  | .hbm, ⟨9, _⟩ => ⟨S4096x128, .bf16⟩
  | .hbm, ⟨10, _⟩ => ⟨S4096x128, .f32⟩
  | .hbm, ⟨11, _⟩ => ⟨S4096x7, .f32⟩
  | .local _ .vmem, ⟨0, _⟩ => ⟨S4096x1536, .bf16⟩
  | .local _ .vmem, ⟨1, _⟩ => ⟨S1024x4096, .bf16⟩
  | .local _ .vmem, ⟨2, _⟩ => ⟨S1024x4096, .bf16⟩
  | .local _ .vmem, ⟨3, _⟩ => ⟨S1680x128, .f32⟩
  | .local _ .vmem, ⟨4, _⟩ => ⟨S1024x128, .bf16⟩
  | .local _ .vmem, ⟨5, _⟩ => ⟨S1024x128, .bf16⟩
  | .local _ .vmem, ⟨6, _⟩ => ⟨S1024x4096, .bf16⟩
  | .local _ .vmem, ⟨7, _⟩ => ⟨S1024x4096, .bf16⟩
  | .local _ .vmem, ⟨8, _⟩ => ⟨S4096x128, .bf16⟩
  | .local _ .vmem, ⟨9, _⟩ => ⟨S1680x128, .f32⟩
  | .local _ .vmem, ⟨10, _⟩ => ⟨S1024x128, .f32⟩
  | .local _ .vmem, ⟨11, _⟩ => ⟨S1024x128, .f32⟩
  | _, _ => ⟨S4096x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1680x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1680x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S4096x1536 : S_.BroadcastsInDim S4096x1536 (![] : Fin 0 → Fin S4096x1536.rank)
  bitsLt_bf16_f32 : FTy.bits .bf16 < FTy.bits .f32
  bcast_S_S1 : S_.BroadcastsInDim S1 (![] : Fin 0 → Fin S1.rank)
  slices_S4096x128_S4096x7_0_0 : S4096x128.Slices ![0, 0] S4096x7
  inb_S1680x128_S1536x128_0_0 : ∀ a, (![0, 0] : Fin 2 → Nat) a + S1536x128.size a ≤ S1680x128.size a
  h_S1536x128 : 0 < S1536x128.numel
  inb_S1680x128_S1x128_1536_0 : ∀ a, (![1536, 0] : Fin 2 → Nat) a + S1x128.size a ≤ S1680x128.size a
  h_S1x128 : 0 < S1x128.numel
  inb_S1680x128_S128x128_1544_0 : ∀ a, (![1544, 0] : Fin 2 → Nat) a + S128x128.size a ≤ S1680x128.size a
  h_S128x128 : 0 < S128x128.numel
  inb_S4096x1536_S4096x1536_0_0 : ∀ a, (![0, 0] : Fin 2 → Nat) a + S4096x1536.size a ≤ S4096x1536.size a
  h_S4096x1536 : 0 < S4096x1536.numel
  shapeCasts_S4096x1536_S4096x1536 : S4096x1536.ShapeCasts S4096x1536
  inb_S1024x4096_S1024x4096_0_0 : ∀ a, (![0, 0] : Fin 2 → Nat) a + S1024x4096.size a ≤ S1024x4096.size a
  h_S1024x4096 : 0 < S1024x4096.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S1680x128_S1x128_1672_0 : ∀ a, (![1672, 0] : Fin 2 → Nat) a + S1x128.size a ≤ S1680x128.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S1024x128_S1024 : S1024x128.Reduces [1] S1024
  shapeCasts_S1024_S1024x1 : S1024.ShapeCasts S1024x1
  broadcasts_S1024x1_S1024x128 : S1024x1.Broadcasts S1024x128
  scatter_S4096x1536_S1_S4096x1433_01_n_1_0_wf : ScatterDims.WF S4096x1536 S1 S4096x1433 [0, 1] [] [1] 0
  dot_S4096x1536_S1536x128_S4096x128_1_0_0_1_n_n_wf : DotDims.WF S4096x1536 S1536x128 S4096x128 [1] [0] [0] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1536.size a ≤ S4096x1536.size a
  hwx0_0 : ∀ i : grid0.Coords, EltTy.bits .bf16 = 32 ∨ (Rect.block (s := S4096x1536) S4096x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1680x128.size a ≤ S1680x128.size a
  hwx0_2 : ∀ i : grid0.Coords, EltTy.bits .f32 = 32 ∨ (Rect.block (s := S1680x128) S1680x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1680x128.size a ≤ S1680x128.size a
  hwx1_2 : ∀ i : grid1.Coords, EltTy.bits .f32 = 32 ∨ (Rect.block (s := S1680x128) S1680x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)

variable [Facts₀]

def scatter_S4096x1536_S1_S4096x1433_01_n_1_0 : ScatterDims S4096x1536 S1 S4096x1433 where
  updateWindowDims := [0, 1]
  insertedWindowDims := []
  scatterDimsToOperandDims := [1]
  indexVectorDim := 0
  wf := scatter_S4096x1536_S1_S4096x1433_01_n_1_0_wf
def dot_S4096x1536_S1536x128_S4096x128_1_0_0_1_n_n : DotDims S4096x1536 S1536x128 S4096x128 where
  lhsContracting := [1]
  rhsContracting := [0]
  lhsNonContracting := [0]
  rhsNonContracting := [1]
  lhsBatch := []
  rhsBatch := []
  wf := dot_S4096x1536_S1536x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_call0_v3) S4096x1536.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1680x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1680x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibGcnTiles.lean ====
import proofs.«164760_g2000604362070828_pallasbulk_252_1_alg».proof.Proof.LibContract
import Idealize.ShloMosaic.PureOps.Ideal.Laws
import Idealize.ShloMosaic.Lib.ValueIdx
import Idealize.ShloMosaic.Lib.Pipeline.Value

/-!
# Row tiles of a two-layer graph convolution, read at an entry on the extended reals

A graph-convolution forward pass works on ROW TILES: a tile of `R` rows of the normalized adjacency matrix is
multiplied into a full feature matrix, and every later step (bias, `relu`, the second weight, the row-wise
`log_softmax`) acts on each row of the tile by itself. So entry `(p, l)` of a tile's result is a function of row `p` of
the adjacency tile alone, the SAME function whatever the tile height `R`: this file states that function (`hidRow`,
`lsmRow`) and reads the two tile bodies (`hidTile`, `lsmTile`) at an entry as it, for every `R`.
-/

noncomputable section

namespace Cert.LibGcn

open Idealize.ShloMosaic Idealize.ShloMosaic.ValueIdx

/-- The rank-2 shape `[a, b]`. -/
abbrev Sh (a b : Nat) : Shape := ⟨2, ![a, b]⟩
/-- The rank-1 shape `[a]`. -/
abbrev Sh1 (a : Nat) : Shape := ⟨1, ![a]⟩

/-! ## Layout steps read at an entry -/

/-- A row vector `[1, N]` broadcast down `R` rows reads its own entry `q` at `(p, q)`. -/
theorem bcastRow_apply {α : Type} (R N : Nat) (hb : (Sh 1 N).Broadcasts (Sh R N)) (b : (Sh 1 N).Idx → α) (p : Fin R) (q : Fin N) :
    broadcastTo (Sh R N) b hb (ix2 p q) = b (ix2 (0 : Fin 1) q) := by
  have hq := q.isLt
  refine broadcastTo_apply b hb (ix2 p q) (ix2 (0 : Fin 1) q) ?_
  intro a
  match a with
  | ⟨0, _⟩ => exact (if_pos rfl).symm
  | ⟨1, _⟩ =>
    show q.val = if N = 1 then 0 else q.val
    split
    · omega
    · rfl

/-- A vector `[R]` cast to a column `[R, 1]` and broadcast along `N` columns reads its entry `p` at `(p, q)`. -/
theorem bcastCol_apply {α : Type} (R N : Nat) (hc : (Sh1 R).ShapeCasts (Sh R 1)) (hb : (Sh R 1).Broadcasts (Sh R N))
    (v : (Sh1 R).Idx → α) (p : Fin R) (q : Fin N) :
    broadcastTo (Sh R N) (shapeCast (Sh R 1) v hc) hb (ix2 p q) = v (ix1 p) := by
  have hp := p.isLt
  refine (broadcastTo_apply (shapeCast (Sh R 1) v hc) hb (ix2 p q) (ix2 p (0 : Fin 1)) ?_).trans ?_
  · intro a
    match a with
    | ⟨0, _⟩ =>
      show p.val = if R = 1 then 0 else p.val
      split
      · omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

/-- Reducing `[R, N]` along its columns: the index `p` of the result with column `k` put back is `(p, k)`. -/
theorem lift_cols (R N : Nat) (h : (Sh R N).Reduces [1] (Sh1 R)) (p : Fin R) (k : Fin N) :
    h.lift (ix1 p) k = ix2 p k := by
  funext a
  match a with
  | ⟨0, _⟩ => rfl
  | ⟨1, _⟩ => rfl

/-! ## The three row functions -/

/-- A row of `x · w`: the dot product of a row of `x` with column `l` of `w`. -/
def dotRow {K : Nat} (xrow : Fin K → EReal) (w : Fin K → Fin 128 → EReal) (l : Fin 128) : EReal :=
  ∑ k : Fin K, xrow k * w k l

/-- A row of the hidden layer times the second weight: `relu (arow · xw + b) · w` at column `l`. -/
def hidRow {K : Nat} (arow : Fin K → EReal) (xw : Fin K → Fin 128 → EReal) (b : Fin 128 → EReal)
    (w : Fin 128 → Fin 128 → EReal) (l : Fin 128) : EReal :=
  ∑ j : Fin 128, max (dotRow arow xw j + b j) 0 * w j l

/-- The largest of a row's 128 entries, folded from `-∞`. -/
def rowMax (g : Fin 128 → EReal) : EReal :=
  (Finset.univ : Finset (Fin 128)).fold max (Ideal.ofBits .f32 0xFF800000#32) g

/-- `log_softmax` of a row of 128 logits at column `l`: `(g l - max g) - log (∑ k, exp (g k - max g))`. -/
def lsmRow (g : Fin 128 → EReal) (l : Fin 128) : EReal :=
  (g l - rowMax g) - FloatOps.log (F := Ideal) (φ := .f32) (∑ k : Fin 128, FloatOps.exp (F := Ideal) (φ := .f32) (g k - rowMax g))

/-- A row of the output layer: `log_softmax (arow · hw + b)` at column `l`. -/
def outRow {K : Nat} (arow : Fin K → EReal) (hw : Fin K → Fin 128 → EReal) (b : Fin 128 → EReal) (l : Fin 128) : EReal :=
  lsmRow (fun k => dotRow arow hw k + b k) l

/-- The row functions depend on their arguments only through their values. -/
theorem dotRow_congr {K : Nat} {f f' : Fin K → EReal} {g g' : Fin K → Fin 128 → EReal} {l l' : Fin 128}
    (hf : ∀ k, f k = f' k) (hg : ∀ k j, g k j = g' k j) (hl : l = l') : dotRow f g l = dotRow f' g' l' := by
  subst hl
  rw [show f = f' from funext hf, show g = g' from funext fun k => funext (hg k)]

theorem hidRow_congr {K : Nat} {a a' : Fin K → EReal} {xw xw' : Fin K → Fin 128 → EReal} {b b' : Fin 128 → EReal}
    {w w' : Fin 128 → Fin 128 → EReal} {l l' : Fin 128} (ha : ∀ q, a q = a' q) (hxw : ∀ q j, xw q j = xw' q j)
    (hb : ∀ j, b j = b' j) (hw : ∀ j k, w j k = w' j k) (hl : l = l') : hidRow a xw b w l = hidRow a' xw' b' w' l' := by
  subst hl
  rw [show a = a' from funext ha, show xw = xw' from funext fun q => funext (hxw q), show b = b' from funext hb,
    show w = w' from funext fun j => funext (hw j)]

theorem outRow_congr {K : Nat} {a a' : Fin K → EReal} {hw hw' : Fin K → Fin 128 → EReal} {b b' : Fin 128 → EReal}
    {l l' : Fin 128} (ha : ∀ q, a q = a' q) (hhw : ∀ q j, hw q j = hw' q j) (hb : ∀ j, b j = b' j) (hl : l = l') :
    outRow a hw b l = outRow a' hw' b' l' := by
  subst hl
  rw [show a = a' from funext ha, show hw = hw' from funext fun q => funext (hhw q), show b = b' from funext hb]

/-! ## The tile bodies -/

/-- The first tile body: `x · w` for a tile of `R` rows of `x`, both operands narrowed to bf16 and the product narrowed again
    (every narrowing the identity on the extended reals). -/
def xwTile (R K : Nat) (x : FVec Ideal (Sh R K) .f32) (w : FVec Ideal (Sh K 128) .f32) : FVec Ideal (Sh R 128) .bf16 :=
  truncf .bf16 (matmul (DotDims.plain R K 128) none (truncf .bf16 x (by decide)) (truncf .bf16 w (by decide))
    (constant (Sh R 128) .f32 0x00000000#32)) (by decide)

theorem xwTile_apply (R K : Nat) (x : FVec Ideal (Sh R K) .f32) (w : FVec Ideal (Sh K 128) .f32) (p : Fin R) (l : Fin 128) :
    xwTile R K x w (ix2 p l) = dotRow (fun k => x (ix2 p k)) (fun k j => w (ix2 k j)) l := by
  unfold xwTile dotRow
  rw [truncf_apply, Cert.LibDense.matmul_plain_zero_apply]
  rfl

/-- The hidden-layer tile body: `relu (a · xw + b) · w` for a tile `a` of `R` adjacency rows, the bias a `[1, 128]` row. -/
def hidTile (R K : Nat) (hb : (Sh 1 128).Broadcasts (Sh R 128)) (b : FVec Ideal (Sh 1 128) .f32) (w : FVec Ideal (Sh 128 128) .f32)
    (a : FVec Ideal (Sh R K) .bf16) (xw : FVec Ideal (Sh K 128) .bf16) : FVec Ideal (Sh R 128) .bf16 :=
  truncf .bf16
    (matmul (DotDims.plain R 128 128) none
      (truncf .bf16
        (maximumf
          (addf (matmul (DotDims.plain R K 128) none a xw (constant (Sh R 128) .f32 0x00000000#32)) (broadcastTo (Sh R 128) b hb))
          (broadcast (Sh R 128) (Scalar.ofBits (F := Ideal) .f32 0x00000000#32)))
        (by decide))
      (truncf .bf16 w (by decide)) (constant (Sh R 128) .f32 0x00000000#32))
    (by decide)

theorem hidTile_apply (R K : Nat) (hb : (Sh 1 128).Broadcasts (Sh R 128)) (b : FVec Ideal (Sh 1 128) .f32)
    (w : FVec Ideal (Sh 128 128) .f32) (a : FVec Ideal (Sh R K) .bf16) (xw : FVec Ideal (Sh K 128) .bf16) (p : Fin R) (l : Fin 128) :
    hidTile R K hb b w a xw (ix2 p l)
      = hidRow (fun q => a (ix2 p q)) (fun q j => xw (ix2 q j)) (fun j => b (ix2 (0 : Fin 1) j)) (fun j k => w (ix2 j k)) l := by
  unfold hidTile hidRow
  rw [truncf_apply, Cert.LibDense.matmul_plain_zero_apply]
  refine Finset.sum_congr rfl fun j _ => ?_
  -- entry (p, j) of the relu, and entry (j, l) of the narrowed weight
  show max (matmul (DotDims.plain R K 128) none a xw (constant (Sh R 128) .f32 0x00000000#32) (ix2 p j)
        + broadcastTo (Sh R 128) b hb (ix2 p j)) (Ideal.ofBits .f32 0x00000000#32) * w (ix2 j l) = _
  rw [Cert.LibDense.matmul_plain_zero_apply, bcastRow_apply, Ideal.ofBits_zero_f32]
  rfl

/-- A lane maximum read at a row: the reduction of `[R, 128]` along its columns from `-∞`, at row `p`, is the largest
    entry of that row. -/
theorem rowMax_apply (R : Nat) (hred : (Sh R 128).Reduces [1] (Sh1 R)) (hφ : FKind.Formats .f32)
    (hacc : (0xFF800000#32 : BitVec 32) = FKind.maximumf.neutral .f32 hφ) (v : FVec Ideal (Sh R 128) .f32) (p : Fin R)
    (g : Fin 128 → EReal) (hg : ∀ k, v (ix2 p k) = g k) :
    multiReduction .maximumf [1] (Sh1 R) v 0xFF800000#32 hred hφ hacc (ix1 p) = rowMax g := by
  rw [Ideal.multiReduction_maximumf_single]
  have e : (v ∘ hred.lift (ix1 p)) = g := funext fun k => by
    exact (congrArg v (lift_cols R 128 hred p k)).trans (hg k)
  rw [e]
  rfl

/-- A lane sum read at a row: the sum of that row's entries. -/
theorem rowSum_apply (R : Nat) (hred : (Sh R 128).Reduces [1] (Sh1 R)) (hφ : FKind.Formats .f32)
    (hacc : (0x00000000#32 : BitVec 32) = FKind.add.neutral .f32 hφ) (v : FVec Ideal (Sh R 128) .f32) (p : Fin R)
    (g : Fin 128 → EReal) (hg : ∀ k, v (ix2 p k) = g k) :
    multiReduction .add [1] (Sh1 R) v 0x00000000#32 hred hφ hacc (ix1 p) = ∑ k : Fin 128, g k := by
  rw [Ideal.multiReduction_add_single]
  exact Finset.sum_congr rfl fun k _ => (congrArg v (lift_cols R 128 hred p k)).trans (hg k)

/-- The row-wise `log_softmax` of a tile of logits, as a kernel spells it: the lane maximum, cast to a column and broadcast
    back, subtracted; the exponentials' lane sum; its logarithm, cast and broadcast back, subtracted. -/
def lsmOf (R : Nat) (hred : (Sh R 128).Reduces [1] (Sh1 R)) (hc : (Sh1 R).ShapeCasts (Sh R 1)) (hbc : (Sh R 1).Broadcasts (Sh R 128))
    (g : FVec Ideal (Sh R 128) .f32) : FVec Ideal (Sh R 128) .f32 :=
  have mx : FVec Ideal (Sh1 R) .f32 := multiReduction .maximumf [1] (Sh1 R) g 0xFF800000#32 hred (.inl rfl) rfl
  have z : FVec Ideal (Sh R 128) .f32 := subf g (broadcastTo (Sh R 128) (shapeCast (Sh R 1) mx hc) hbc)
  have se : FVec Ideal (Sh1 R) .f32 := multiReduction .add [1] (Sh1 R) (exp z) 0x00000000#32 hred (.inl rfl) rfl
  subf z (broadcastTo (Sh R 128) (log (shapeCast (Sh R 1) se hc)) hbc)

theorem lsmOf_apply (R : Nat) (hred : (Sh R 128).Reduces [1] (Sh1 R)) (hc : (Sh1 R).ShapeCasts (Sh R 1))
    (hbc : (Sh R 1).Broadcasts (Sh R 128)) (g : FVec Ideal (Sh R 128) .f32) (p : Fin R) (l : Fin 128) :
    lsmOf R hred hc hbc g (ix2 p l) = lsmRow (fun k => g (ix2 p k)) l := by
  -- the row's maximum
  have hmx : multiReduction .maximumf [1] (Sh1 R) g 0xFF800000#32 hred (.inl rfl) rfl (ix1 p) = rowMax (fun k => g (ix2 p k)) :=
    rowMax_apply R hred (.inl rfl) rfl g p _ fun _ => rfl
  -- the shifted logits at an entry of row p
  have hz : ∀ k : Fin 128,
      subf g (broadcastTo (Sh R 128) (shapeCast (Sh R 1) (multiReduction .maximumf [1] (Sh1 R) g 0xFF800000#32 hred (.inl rfl) rfl) hc) hbc) (ix2 p k)
        = g (ix2 p k) - rowMax (fun k => g (ix2 p k)) := by
    intro k
    rw [subf_apply, bcastCol_apply, hmx]
  -- the sum of the row's exponentials
  have hse := rowSum_apply R hred (.inl rfl) rfl
    (exp (subf g (broadcastTo (Sh R 128) (shapeCast (Sh R 1) (multiReduction .maximumf [1] (Sh1 R) g 0xFF800000#32 hred (.inl rfl) rfl) hc) hbc))) p
    (fun k => FloatOps.exp (F := Ideal) (φ := .f32) (g (ix2 p k) - rowMax (fun k => g (ix2 p k))))
    (fun k => congrArg (FloatOps.exp (F := Ideal) (φ := .f32)) (hz k))
  unfold lsmOf lsmRow
  dsimp only
  rw [subf_apply, hz]
  -- the logarithm commutes with the cast to a column
  rw [show log (shapeCast (Sh R 1) (multiReduction .add [1] (Sh1 R)
        (exp (subf g (broadcastTo (Sh R 128) (shapeCast (Sh R 1) (multiReduction .maximumf [1] (Sh1 R) g 0xFF800000#32 hred (.inl rfl) rfl) hc) hbc)))
        0x00000000#32 hred (.inl rfl) rfl) hc)
      = shapeCast (Sh R 1) (log (multiReduction .add [1] (Sh1 R)
        (exp (subf g (broadcastTo (Sh R 128) (shapeCast (Sh R 1) (multiReduction .maximumf [1] (Sh1 R) g 0xFF800000#32 hred (.inl rfl) rfl) hc) hbc)))
        0x00000000#32 hred (.inl rfl) rfl)) hc from rfl,
    bcastCol_apply]
  show _ - FloatOps.log (F := Ideal) (φ := .f32) (multiReduction .add [1] (Sh1 R)
        (exp (subf g (broadcastTo (Sh R 128) (shapeCast (Sh R 1) (multiReduction .maximumf [1] (Sh1 R) g 0xFF800000#32 hred (.inl rfl) rfl) hc) hbc)))
        0x00000000#32 hred (.inl rfl) rfl (ix1 p)) = _
  rw [hse]

/-- The output tile body: the row-wise `log_softmax` of `a · hw + b` for a tile `a` of `R` adjacency rows. -/
def lsmTile (R K : Nat) (hb : (Sh 1 128).Broadcasts (Sh R 128)) (hred : (Sh R 128).Reduces [1] (Sh1 R))
    (hc : (Sh1 R).ShapeCasts (Sh R 1)) (hbc : (Sh R 1).Broadcasts (Sh R 128))
    (b : FVec Ideal (Sh 1 128) .f32) (a : FVec Ideal (Sh R K) .bf16) (hw : FVec Ideal (Sh K 128) .bf16) : FVec Ideal (Sh R 128) .f32 :=
  lsmOf R hred hc hbc
    (addf (matmul (DotDims.plain R K 128) none a hw (constant (Sh R 128) .f32 0x00000000#32)) (broadcastTo (Sh R 128) b hb))

theorem lsmTile_apply (R K : Nat) (hb : (Sh 1 128).Broadcasts (Sh R 128)) (hred : (Sh R 128).Reduces [1] (Sh1 R))
    (hc : (Sh1 R).ShapeCasts (Sh R 1)) (hbc : (Sh R 1).Broadcasts (Sh R 128))
    (b : FVec Ideal (Sh 1 128) .f32) (a : FVec Ideal (Sh R K) .bf16) (hw : FVec Ideal (Sh K 128) .bf16) (p : Fin R) (l : Fin 128) :
    lsmTile R K hb hred hc hbc b a hw (ix2 p l)
      = outRow (fun q => a (ix2 p q)) (fun q j => hw (ix2 q j)) (fun j => b (ix2 (0 : Fin 1) j)) l := by
  unfold lsmTile outRow
  rw [lsmOf_apply]
  refine congrArg (fun g => lsmRow g l) (funext fun k => ?_)
  rw [addf_apply, Cert.LibDense.matmul_plain_zero_apply, bcastRow_apply]
  rfl

end Cert.LibGcn

end
-- ==== Proof.GcnSpec.lean ====
import proofs.«164760_g2000604362070828_pallasbulk_252_1_alg».proof.Proof.LibGcnTiles

/-!
# The two-layer graph convolution as whole-array functions

`x : [4096, 1433]` are the node features, `A : [4096, 4096]` the normalized adjacency matrix, `slab : [1680, 128]` the packed
parameters: rows `0 … 1535` the first weight (the rows from 1433 on are padding), row `1536` the first bias, rows
`1544 … 1671` the second weight, row `1672` the second bias. The network is

  `out = log_softmax (A · (relu (A · (x · W₁) + b₁) · W₂) + b₂)`, of which the first 7 columns are returned.

Each stage is stated entry by entry through the row functions `dotRow`, `hidRow`, `outRow`.
-/

noncomputable section

namespace Cert.Gcn

open Idealize.ShloMosaic Idealize.ShloMosaic.ValueIdx Cert.LibGcn

/-- An `[a, b]` matrix of extended reals. -/
abbrev Mat (a b : Nat) : Type := (Sh a b).Idx → EReal

/-- Rows `o … o + n - 1` of the parameter slab, as a function of the row inside the block and the column. -/
def slabRows (o n : Nat) (h : o + n ≤ 1680) (slab : Mat 1680 128) : Fin n → Fin 128 → EReal :=
  fun k j => slab (ix2 (⟨o + k.val, by have := k.isLt; omega⟩ : Fin 1680) j)

/-- `x · W₁` over the 1433 real feature columns. -/
def xwOf (x : Mat 4096 1433) (slab : Mat 1680 128) : Mat 4096 128 :=
  fun i => dotRow (fun k => x (ix2 (i 0) k)) (slabRows 0 1433 (by decide) slab) (i 1)

/-- `x · W₁` over 1536 columns of a feature matrix padded to that width. -/
def xwPadOf (xp : Mat 4096 1536) (slab : Mat 1680 128) : Mat 4096 128 :=
  fun i => dotRow (fun k => xp (ix2 (i 0) k)) (slabRows 0 1536 (by decide) slab) (i 1)

/-- `relu (A · xw + b₁) · W₂`. -/
def hwOf (A : Mat 4096 4096) (xw : Mat 4096 128) (slab : Mat 1680 128) : Mat 4096 128 :=
  fun i => hidRow (fun q => A (ix2 (i 0) q)) (fun q j => xw (ix2 q j)) (slabRows 1536 1 (by decide) slab 0)
    (slabRows 1544 128 (by decide) slab) (i 1)

/-- `log_softmax (A · hw + b₂)` over the 128 lanes. -/
def outOf (A : Mat 4096 4096) (hw : Mat 4096 128) (slab : Mat 1680 128) : Mat 4096 128 :=
  fun i => outRow (fun q => A (ix2 (i 0) q)) (fun q j => hw (ix2 q j)) (slabRows 1672 1 (by decide) slab 0) (i 1)

/-- The first 7 columns. -/
def classesOf (out : Mat 4096 128) : Mat 4096 7 :=
  fun i => out (ix2 (i 0) (⟨(i 1).val, by have := idx2_lt1 i; omega⟩ : Fin 128))

/-- The whole network. -/
def gcn (x : Mat 4096 1433) (A : Mat 4096 4096) (slab : Mat 1680 128) : Mat 4096 7 :=
  classesOf (outOf A (hwOf A (xwOf x slab) slab) slab)

/-- The feature matrix padded with zero columns to width 1536. -/
def padCols (x : Mat 4096 1433) : Mat 4096 1536 :=
  fun i => if h : (i 1).val < 1433 then x (ix2 (i 0) ⟨(i 1).val, h⟩) else 0

/-- A sum whose last `b` terms vanish is the sum of its first `a` terms. -/
theorem sum_pad {a b : Nat} (f : Fin (a + b) → EReal) (hf : ∀ k : Fin b, f (Fin.natAdd a k) = 0) :
    ∑ k, f k = ∑ k : Fin a, f (Fin.castAdd b k) := by
  rw [Fin.sum_univ_add, Finset.sum_eq_zero (fun k _ => hf k), add_zero]

/-- The padding columns contribute `0 · w = 0` to every dot product (on the extended reals `0 · w = 0` whatever `w` is), so
    the product over the padded width is the product over the real one. -/
theorem xwPadOf_padCols (x : Mat 4096 1433) (slab : Mat 1680 128) : xwPadOf (padCols x) slab = xwOf x slab := by
  funext i
  refine (sum_pad (a := 1433) (b := 103)
    (fun k => padCols x (ix2 (i 0) k) * slabRows 0 1536 (by decide) slab k (i 1)) ?_).trans ?_
  · intro k
    have h0 : padCols x (ix2 (i 0) (Fin.natAdd 1433 k)) = 0 :=
      dif_neg (by show ¬ (1433 + k.val < 1433); omega)
    show padCols x (ix2 (i 0) (Fin.natAdd 1433 k)) * _ = 0
    rw [h0, zero_mul]
  · show _ = ∑ k : Fin 1433, x (ix2 (i 0) k) * slabRows 0 1433 (by decide) slab k (i 1)
    refine Finset.sum_congr rfl fun k _ => ?_
    have hx : padCols x (ix2 (i 0) (Fin.castAdd 103 k)) = x (ix2 (i 0) k) := dif_pos k.isLt
    show padCols x (ix2 (i 0) (Fin.castAdd 103 k)) * _ = x (ix2 (i 0) k) * _
    rw [hx]
    rfl

end Cert.Gcn

end
-- ==== Proof.KernelValue.lean ====
import proofs.«164760_g2000604362070828_pallasbulk_252_1_alg».proof.Proof.Gen.KernelIdeal.Frame
import proofs.«164760_g2000604362070828_pallasbulk_252_1_alg».proof.Proof.KernelRun
import proofs.«164760_g2000604362070828_pallasbulk_252_1_alg».proof.Proof.GcnSpec
import Idealize.ShloMosaic.Lib.Pipeline.Value
import Idealize.ShloMosaic.Lib.StableHlo.Run

/-!
# What the kernel program computes

Three row-tiled regions, eight tiles of 512 rows each. Region 0 writes `x · W₁`; region 1 reads it whole and writes
`relu (A · xw + b₁) · W₂`; region 2 reads that whole and writes the row-wise `log_softmax (A · hw + b₂)`; the host
then keeps the first 7 columns. Per region: tile `t` of the output is the tile body of tile `t` of the row-tiled
input and of the whole of the other inputs, which is rows `512 t … 512 t + 511` of the stage's whole-array function; the
eight tiles cover the array.
-/

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.LibGcn Cert.Gcn
open Idealize.ShloMosaic.Pipeline (Dat)

theorem hz : (![0, 0] : Fin 2 → Nat) = fun _ => 0 := funext fun a => by fin_cases a <;> rfl

section Regions

variable (V : (c : Dev nD) → (b : Ref sig .tc) → Buf (Elt Ideal) ((c : Thread nD τ).loc b))

/-! ## Region 0: `x · W₁` -/

/-- The body's payload is the first tile body. -/
theorem pay0_eq (v0 : Vec Ideal S1433x128 .f32) (v2 : Vec Ideal S512x1433 .f32) : k0_pay1 v0 v2 = xwTile 512 1433 v2 v0 := rfl

/-- The index maps over the grid: the feature tile and the output tile move down with the point, the slab stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a tile: with the feature tile's row `y 0` being row `i 0` of the features and the slab staged whole, entry
    `y` of the tile body is entry `i` of `x · W₁`. -/
theorem point0 (X : Mat 4096 1433) (S : Mat 1680 128) (x0 : Vec Ideal S512x1433 .f32) (x1 : Vec Ideal S1680x128 .f32)
    (y : S512x128.Idx) (i : S4096x128.Idx) (hx0 : ∀ k : Fin 1433, x0 (ix2 (y 0) k) = X (ix2 (i 0) k))
    (hx1 : ∀ z : S1680x128.Idx, x1 z = S z) (hl : y 1 = i 1) :
    xwTile 512 1433 (View.ld x0 r0_1) (View.ld x1 r0_0) y = xwOf X S i := by
  obtain ⟨p, l, rfl⟩ : ∃ (p : Fin 512) (l : Fin 128), y = ix2 p l := ⟨y 0, y 1, eq_ix2 y⟩
  rw [xwTile_apply]
  refine dotRow_congr (fun k => ?_) (fun k j => ?_) hl
  · show x0 (r0_1.idx (ix2 p k)) = _
    rw [← hx0 k]
    refine congrArg x0 (funext fun a => Fin.ext ?_)
    match a with
    | ⟨0, _⟩ => show 0 + 1 * p.val = p.val; omega
    | ⟨1, _⟩ => show 0 + 1 * k.val = k.val; omega
  · show x1 (r0_0.idx (ix2 k j)) = S (ix2 ⟨0 + k.val, _⟩ j)
    rw [hx1]
    refine congrArg S (funext fun a => Fin.ext ?_)
    match a with
    | ⟨0, _⟩ => show 0 + 1 * k.val = 0 + k.val; omega
    | ⟨1, _⟩ => show 0 + 1 * j.val = j.val; omega

/-- What point `t` writes back is tile `t` of `x · W₁`. -/
theorem flushed0_eq (c : Dev nD) (t : Fin cfg0.N) :
    (dat0 V c).flushed 2 t = ((cfg0.win 2).blk t).view.read (Elt Ideal) (xwOf (V c main_arg0) (V c main_arg2)) := by
  show (cfg0.win 2).cut (grid0.coords t) ((dat0 V c).after 2 t) = _
  rw [after0_2]
  unfold out0_2
  rw [View.canon_unit_zero hz, pay0_eq]
  obtain ⟨e00, e01, e10, e11, e20, e21⟩ := idx0 t
  funext y
  have hy0 : (y 0).val < 512 := (y 0).isLt
  have hy1 : (y 1).val < 128 := (y 1).isLt
  show xwTile 512 1433 (View.ld (iblk0 V c 0 t) r0_1) (View.ld (iblk0 V c 1 t) r0_0) ((cfg0.win 2).xinj (grid0.coords t) y)
    = xwOf (V c main_arg0) (V c main_arg2) (((cfg0.win 2).blk t).view.emb y)
  refine point0 (V c main_arg0) (V c main_arg2) (iblk0 V c 0 t) (iblk0 V c 1 t) ((cfg0.win 2).xinj (grid0.coords t) y)
    (((cfg0.win 2).blk t).view.emb y) (fun k => ?_) (fun z => ?_) (Fin.ext ?_)
  · -- row `y 0` of the feature tile is row `512 t + y 0` of the features
    show V c main_arg0 (((cfg0.win 0).blk t).view.emb (ix2 ((cfg0.win 2).xinj (grid0.coords t) y 0) k)) = _
    refine congrArg (V c main_arg0) (funext fun a => Fin.ext ?_)
    have hk := k.isLt
    match a with
    | ⟨0, _⟩ =>
      show win0_0.index t (0 : Fin 2) * 512 + 1 * (y 0).val = win0_2.index t (0 : Fin 2) * 512 + 1 * (y 0).val
      rw [e00, e20]
    | ⟨1, _⟩ =>
      show win0_0.index t (1 : Fin 2) * 1433 + 1 * k.val = k.val
      rw [e01]; omega
  · -- the slab is staged whole
    show V c main_arg2 (((cfg0.win 1).blk t).view.emb z) = V c main_arg2 z
    refine congrArg (V c main_arg2) (funext fun a => Fin.ext ?_)
    match a with
    | ⟨0, _⟩ =>
      show win0_1.index t (0 : Fin 2) * 1680 + 1 * (z 0).val = (z 0).val
      rw [e10]; omega
    | ⟨1, _⟩ =>
      show win0_1.index t (1 : Fin 2) * 128 + 1 * (z 1).val = (z 1).val
      rw [e11]; omega
  · show (y 1).val = win0_2.index t (1 : Fin 2) * 128 + 1 * (y 1).val
    rw [e21]; omega

/-- An index of the array is in point `t`'s tile iff each coordinate is in the tile's range on its axis. -/
theorem mem_blk0 (t : Fin cfg0.N) (i : S4096x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_call0_v0).slice (win0_2.rect t)).set ↔ _
  rw [View.set_slice_whole, Rect.mem_set_unit]
  exact Iff.rfl

/-- Row `r` lies in tile `r / 512`: the eight tiles cover the array. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have ht : (i 0).val / 512 < 8 := by omega
  refine ⟨⟨(i 0).val / 512, ht⟩, flush0_2 _, ?_⟩
  rw [mem_blk0]
  obtain ⟨-, -, -, -, e20, e21⟩ := idx0 ⟨(i 0).val / 512, ht⟩
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e20]
    show (i 0).val / 512 * 512 ≤ (i 0).val ∧ (i 0).val < (i 0).val / 512 * 512 + 512
    omega
  | ⟨1, _⟩ =>
    show win0_2.index ⟨(i 0).val / 512, ht⟩ (1 : Fin 2) * 128 ≤ (i 1).val
      ∧ (i 1).val < win0_2.index ⟨(i 0).val / 512, ht⟩ (1 : Fin 2) * 128 + 128
    rw [e21]; omega

/-- Region 0 leaves `x · W₁` in its output array. -/
theorem final0 (c : Dev nD) : (dat0 V c).arrAt 2 cfg0.N = xwOf (V c main_arg0) (V c main_arg2) :=
  (dat0 V c).arrAt_eq_of_cover 2 _ (fun t _ => flushed0_eq V c t) cover0

/-! ## Region 1: `relu (A · xw + b₁) · W₂` -/

/-- The body's payload is the hidden-layer tile body (the cast of the staged `xw` to its own shape is the identity). -/
theorem pay1_eq (v0 : Vec Ideal S1x128 .f32) (v1 : Vec Ideal S128x128 .f32) (v3 : Vec Ideal S512x4096 .bf16)
    (v4 : Vec Ideal S4096x128 .bf16) : k1_pay1 v0 v1 v3 v4 = hidTile 512 4096 broadcasts_S1x128_S512x128 v0 v1 v3 v4 := by
  show hidTile 512 4096 broadcasts_S1x128_S512x128 v0 v1 v3 (shapeCast S4096x128 v4 shapeCasts_S4096x128_S4096x128) = _
  rw [shapeCast_self]

/-- The index maps over the grid: the adjacency tile and the output tile move down with the point, the rest stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a tile: with the adjacency tile's row `y 0` being row `i 0` of the adjacency matrix and the other two
    operands staged whole, entry `y` of the tile body is entry `i` of the stage. -/
theorem point1 (A : Mat 4096 4096) (XW : Mat 4096 128) (S : Mat 1680 128) (x0 : Vec Ideal S512x4096 .bf16)
    (x1 : Vec Ideal S4096x128 .bf16) (x2 : Vec Ideal S1680x128 .f32) (y : S512x128.Idx) (i : S4096x128.Idx)
    (hx0 : ∀ q : Fin 4096, x0 (ix2 (y 0) q) = A (ix2 (i 0) q)) (hx1 : ∀ z : S4096x128.Idx, x1 z = XW z)
    (hx2 : ∀ z : S1680x128.Idx, x2 z = S z) (hl : y 1 = i 1) :
    hidTile 512 4096 broadcasts_S1x128_S512x128 (View.ld x2 r1_0) (View.ld x2 r1_1) (View.ld x0 r1_2) (View.ld x1 r1_3) y
      = hwOf A XW S i := by
  obtain ⟨p, l, rfl⟩ : ∃ (p : Fin 512) (l : Fin 128), y = ix2 p l := ⟨y 0, y 1, eq_ix2 y⟩
  rw [hidTile_apply]
  refine hidRow_congr (fun q => ?_) (fun q j => ?_) (fun j => ?_) (fun j k => ?_) hl
  · show x0 (r1_2.idx (ix2 p q)) = _
    rw [← hx0 q]
    refine congrArg x0 (funext fun a => Fin.ext ?_)
    match a with
    | ⟨0, _⟩ => show 0 + 1 * p.val = p.val; omega
    | ⟨1, _⟩ => show 0 + 1 * q.val = q.val; omega
  · show x1 (r1_3.idx (ix2 q j)) = XW (ix2 q j)
    rw [hx1]
    refine congrArg XW (funext fun a => Fin.ext ?_)
    match a with
    | ⟨0, _⟩ => show 0 + 1 * q.val = q.val; omega
    | ⟨1, _⟩ => show 0 + 1 * j.val = j.val; omega
  · show x2 (r1_0.idx (ix2 (0 : Fin 1) j)) = S (ix2 ⟨1536 + (0 : Fin 1).val, _⟩ j)
    rw [hx2]
    refine congrArg S (funext fun a => Fin.ext ?_)
    match a with
    | ⟨0, _⟩ => show 1536 + 1 * 0 = 1536 + 0; omega
    | ⟨1, _⟩ => show 0 + 1 * j.val = j.val; omega
  · show x2 (r1_1.idx (ix2 j k)) = S (ix2 ⟨1544 + j.val, _⟩ k)
    rw [hx2]
    refine congrArg S (funext fun a => Fin.ext ?_)
    match a with
    | ⟨0, _⟩ => show 1544 + 1 * j.val = 1544 + j.val; omega
    | ⟨1, _⟩ => show 0 + 1 * k.val = k.val; omega

/-- What point `t` writes back is tile `t` of the stage. -/
theorem flushed1_eq (c : Dev nD) (t : Fin cfg1.N) :
    (dat1 V c).flushed 3 t
      = ((cfg1.win 3).blk t).view.read (Elt Ideal) (hwOf (V c main_arg1) (V c main_call0_v0) (V c main_arg2)) := by
  show (cfg1.win 3).cut (grid1.coords t) ((dat1 V c).after 3 t) = _
  rw [after1_3]
  unfold out1_3
  rw [View.canon_unit_zero hz, pay1_eq]
  obtain ⟨e00, e01, e10, e11, e20, e21, e30, e31⟩ := idx1 t
  funext y
  have hy0 : (y 0).val < 512 := (y 0).isLt
  have hy1 : (y 1).val < 128 := (y 1).isLt
  show hidTile 512 4096 broadcasts_S1x128_S512x128 (View.ld (iblk1 V c 2 t) r1_0) (View.ld (iblk1 V c 2 t) r1_1)
      (View.ld (iblk1 V c 0 t) r1_2) (View.ld (iblk1 V c 1 t) r1_3) ((cfg1.win 3).xinj (grid1.coords t) y)
    = hwOf (V c main_arg1) (V c main_call0_v0) (V c main_arg2) (((cfg1.win 3).blk t).view.emb y)
  refine point1 (V c main_arg1) (V c main_call0_v0) (V c main_arg2) (iblk1 V c 0 t) (iblk1 V c 1 t) (iblk1 V c 2 t)
    ((cfg1.win 3).xinj (grid1.coords t) y) (((cfg1.win 3).blk t).view.emb y) (fun q => ?_) (fun z => ?_) (fun z => ?_) (Fin.ext ?_)
  · show V c main_arg1 (((cfg1.win 0).blk t).view.emb (ix2 ((cfg1.win 3).xinj (grid1.coords t) y 0) q)) = _
    refine congrArg (V c main_arg1) (funext fun a => Fin.ext ?_)
    have hq := q.isLt
    match a with
    | ⟨0, _⟩ =>
      show win1_0.index t (0 : Fin 2) * 512 + 1 * (y 0).val = win1_3.index t (0 : Fin 2) * 512 + 1 * (y 0).val
      rw [e00, e30]
    | ⟨1, _⟩ =>
      show win1_0.index t (1 : Fin 2) * 4096 + 1 * q.val = q.val
      rw [e01]; omega
  · show V c main_call0_v0 (((cfg1.win 1).blk t).view.emb z) = V c main_call0_v0 z
    refine congrArg (V c main_call0_v0) (funext fun a => Fin.ext ?_)
    match a with
    | ⟨0, _⟩ =>
      show win1_1.index t (0 : Fin 2) * 4096 + 1 * (z 0).val = (z 0).val
      rw [e10]; omega
    | ⟨1, _⟩ =>
      show win1_1.index t (1 : Fin 2) * 128 + 1 * (z 1).val = (z 1).val
      rw [e11]; omega
  · show V c main_arg2 (((cfg1.win 2).blk t).view.emb z) = V c main_arg2 z
    refine congrArg (V c main_arg2) (funext fun a => Fin.ext ?_)
    match a with
    | ⟨0, _⟩ =>
      show win1_2.index t (0 : Fin 2) * 1680 + 1 * (z 0).val = (z 0).val
      rw [e20]; omega
    | ⟨1, _⟩ =>
      show win1_2.index t (1 : Fin 2) * 128 + 1 * (z 1).val = (z 1).val
      rw [e21]; omega
  · show (y 1).val = win1_3.index t (1 : Fin 2) * 128 + 1 * (y 1).val
    rw [e31]; omega

theorem mem_blk1 (t : Fin cfg1.N) (i : S4096x128.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_call0_v1).slice (win1_3.rect t)).set ↔ _
  rw [View.set_slice_whole, Rect.mem_set_unit]
  exact Iff.rfl

theorem cover1 (i : S4096x128.Idx) : ∃ t : Fin cfg1.N, (cfg1.win 3).flush t = true ∧ i ∈ ((cfg1.win 3).blk t).view.set := by
  have hi0 : (i 0).val < 4096 := (i 0).isLt
  have hi1 : (i 1).val < 128 := (i 1).isLt
  have ht : (i 0).val / 512 < 8 := by omega
  refine ⟨⟨(i 0).val / 512, ht⟩, flush1_3 _, ?_⟩
  rw [mem_blk1]
  obtain ⟨-, -, -, -, -, -, e30, e31⟩ := idx1 ⟨(i 0).val / 512, ht⟩
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win1_3.index ⟨(i 0).val / 512, ht⟩ (1 : Fin 2) * 128 ≤ (i 1).val
      ∧ (i 1).val < win1_3.index ⟨(i 0).val / 512, ht⟩ (1 : Fin 2) * 128 + 128
    rw [e31]; omega

/-- Region 1 leaves `relu (A · xw + b₁) · W₂` in its output array, `xw` being what it found in region 0's. -/
theorem final1 (c : Dev nD) :
    (dat1 V c).arrAt 3 cfg1.N = hwOf (V c main_arg1) (V c main_call0_v0) (V c main_arg2) :=
  (dat1 V c).arrAt_eq_of_cover 3 _ (fun t _ => flushed1_eq V c t) cover1

/-! ## Region 2: the row-wise `log_softmax (A · hw + b₂)` -/

/-- The body's payload is the output tile body. -/
theorem pay2_eq (v0 : Vec Ideal S1x128 .f32) (v1 : Vec Ideal S512x4096 .bf16) (v2 : Vec Ideal S4096x128 .bf16) :
    k2_pay1 v0 v1 v2 = lsmTile 512 4096 broadcasts_S1x128_S512x128 reduces_S512x128_S512 shapeCasts_S512_S512x1
      broadcasts_S512x1_S512x128 v0 v1 v2 := by
  show lsmTile 512 4096 broadcasts_S1x128_S512x128 reduces_S512x128_S512 shapeCasts_S512_S512x1
      broadcasts_S512x1_S512x128 v0 v1 (shapeCast S4096x128 v2 shapeCasts_S4096x128_S4096x128) = _
  rw [shapeCast_self]

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point2 (A : Mat 4096 4096) (HW : Mat 4096 128) (S : Mat 1680 128) (x0 : Vec Ideal S512x4096 .bf16)
    (x1 : Vec Ideal S4096x128 .bf16) (x2 : Vec Ideal S1680x128 .f32) (y : S512x128.Idx) (i : S4096x128.Idx)
    (hx0 : ∀ q : Fin 4096, x0 (ix2 (y 0) q) = A (ix2 (i 0) q)) (hx1 : ∀ z : S4096x128.Idx, x1 z = HW z)
    (hx2 : ∀ z : S1680x128.Idx, x2 z = S z) (hl : y 1 = i 1) :
    lsmTile 512 4096 broadcasts_S1x128_S512x128 reduces_S512x128_S512 shapeCasts_S512_S512x1 broadcasts_S512x1_S512x128
        (View.ld x2 r2_0) (View.ld x0 r2_1) (View.ld x1 r2_2) y
      = outOf A HW S i := by
  obtain ⟨p, l, rfl⟩ : ∃ (p : Fin 512) (l : Fin 128), y = ix2 p l := ⟨y 0, y 1, eq_ix2 y⟩
  rw [lsmTile_apply]
  refine outRow_congr (fun q => ?_) (fun q j => ?_) (fun j => ?_) hl
  · show x0 (r2_1.idx (ix2 p q)) = _
    rw [← hx0 q]
    refine congrArg x0 (funext fun a => Fin.ext ?_)
    match a with
    | ⟨0, _⟩ => show 0 + 1 * p.val = p.val; omega
    | ⟨1, _⟩ => show 0 + 1 * q.val = q.val; omega
  · show x1 (r2_2.idx (ix2 q j)) = HW (ix2 q j)
    rw [hx1]
    refine congrArg HW (funext fun a => Fin.ext ?_)
    match a with
    | ⟨0, _⟩ => show 0 + 1 * q.val = q.val; omega
    | ⟨1, _⟩ => show 0 + 1 * j.val = j.val; omega
  · show x2 (r2_0.idx (ix2 (0 : Fin 1) j)) = S (ix2 ⟨1672 + (0 : Fin 1).val, _⟩ j)
    rw [hx2]
    refine congrArg S (funext fun a => Fin.ext ?_)
    match a with
    | ⟨0, _⟩ => show 1672 + 1 * 0 = 1672 + 0; omega
    | ⟨1, _⟩ => show 0 + 1 * j.val = j.val; omega

theorem flushed2_eq (c : Dev nD) (t : Fin cfg2.N) :
    (dat2 V c).flushed 3 t
      = ((cfg2.win 3).blk t).view.read (Elt Ideal) (outOf (V c main_arg1) (V c main_call0_v1) (V c main_arg2)) := by
  show (cfg2.win 3).cut (grid2.coords t) ((dat2 V c).after 3 t) = _
  rw [after2_3]
  unfold out2_3
  rw [View.canon_unit_zero hz, pay2_eq]
  obtain ⟨e00, e01, e10, e11, e20, e21, e30, e31⟩ := idx2 t
  funext y
  have hy0 : (y 0).val < 512 := (y 0).isLt
  have hy1 : (y 1).val < 128 := (y 1).isLt
  show lsmTile 512 4096 broadcasts_S1x128_S512x128 reduces_S512x128_S512 shapeCasts_S512_S512x1 broadcasts_S512x1_S512x128
      (View.ld (iblk2 V c 2 t) r2_0) (View.ld (iblk2 V c 0 t) r2_1) (View.ld (iblk2 V c 1 t) r2_2)
      ((cfg2.win 3).xinj (grid2.coords t) y)
    = outOf (V c main_arg1) (V c main_call0_v1) (V c main_arg2) (((cfg2.win 3).blk t).view.emb y)
  refine point2 (V c main_arg1) (V c main_call0_v1) (V c main_arg2) (iblk2 V c 0 t) (iblk2 V c 1 t) (iblk2 V c 2 t)
    ((cfg2.win 3).xinj (grid2.coords t) y) (((cfg2.win 3).blk t).view.emb y) (fun q => ?_) (fun z => ?_) (fun z => ?_) (Fin.ext ?_)
  · show V c main_arg1 (((cfg2.win 0).blk t).view.emb (ix2 ((cfg2.win 3).xinj (grid2.coords t) y 0) q)) = _
    refine congrArg (V c main_arg1) (funext fun a => Fin.ext ?_)
    have hq := q.isLt
    match a with
    | ⟨0, _⟩ =>
      show win2_0.index t (0 : Fin 2) * 512 + 1 * (y 0).val = win2_3.index t (0 : Fin 2) * 512 + 1 * (y 0).val
      rw [e00, e30]
    | ⟨1, _⟩ =>
      show win2_0.index t (1 : Fin 2) * 4096 + 1 * q.val = q.val
      rw [e01]; omega
  · show V c main_call0_v1 (((cfg2.win 1).blk t).view.emb z) = V c main_call0_v1 z
    refine congrArg (V c main_call0_v1) (funext fun a => Fin.ext ?_)
    match a with
    | ⟨0, _⟩ =>
      show win2_1.index t (0 : Fin 2) * 4096 + 1 * (z 0).val = (z 0).val
      rw [e10]; omega
    | ⟨1, _⟩ =>
      show win2_1.index t (1 : Fin 2) * 128 + 1 * (z 1).val = (z 1).val
      rw [e11]; omega
  · show V c main_arg2 (((cfg2.win 2).blk t).view.emb z) = V c main_arg2 z
    refine congrArg (V c main_arg2) (funext fun a => Fin.ext ?_)
    match a with
    | ⟨0, _⟩ =>
      show win2_2.index t (0 : Fin 2) * 1680 + 1 * (z 0).val = (z 0).val
      rw [e20]; omega
    | ⟨1, _⟩ =>
      show win2_2.index t (1 : Fin 2) * 128 + 1 * (z 1).val = (z 1).val
      rw [e21]; omega
  · show (y 1).val = win2_3.index t (1 : Fin 2) * 128 + 1 * (y 1).val
    rw [e31]; omega

theorem mem_blk2 (t : Fin cfg2.N) (i : S4096x128.Idx) :
    i ∈ ((cfg2.win 3).blk t).view.set ↔ ∀ a : Fin 2, win2_3.index t a * S512x128.size a ≤ (i a).val
      ∧ (i a).val < win2_3.index t a * S512x128.size a + S512x128.size a := by
  show i ∈ ((View.whole main_call0_v2).slice (win2_3.rect t)).set ↔ _
  rw [View.set_slice_whole, Rect.mem_set_unit]
  exact Iff.rfl

theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have ht : (i 0).val / 512 < 8 := by omega
  refine ⟨⟨(i 0).val / 512, ht⟩, flush2_3 _, ?_⟩
  rw [mem_blk2]
  obtain ⟨-, -, -, -, -, -, e30, e31⟩ := idx2 ⟨(i 0).val / 512, ht⟩
  intro a
  match a with
  | ⟨0, _⟩ =>
    show win2_3.index ⟨(i 0).val / 512, ht⟩ (0 : Fin 2) * 512 ≤ (i 0).val
      ∧ (i 0).val < win2_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win2_3.index ⟨(i 0).val / 512, ht⟩ (1 : Fin 2) * 128 ≤ (i 1).val
      ∧ (i 1).val < win2_3.index ⟨(i 0).val / 512, ht⟩ (1 : Fin 2) * 128 + 128
    rw [e31]; omega

/-- Region 2 leaves the row-wise `log_softmax (A · hw + b₂)` in its output array, `hw` being what it found in region 1's. -/
theorem final2 (c : Dev nD) :
    (dat2 V c).arrAt 3 cfg2.N = outOf (V c main_arg1) (V c main_call0_v1) (V c main_arg2) :=
  (dat2 V c).arrAt_eq_of_cover 3 _ (fun t _ => flushed2_eq V c t) cover2

end Regions

/-! ## The run: the stages chained through the boundaries' contents -/

variable (m : (ℓ : Loc nD τ sig) → Buf (Elt Ideal) ℓ) (ρ : Dev nD → PrngReg)

/-- Region 1 finds the adjacency matrix and the slab as launched, and `x · W₁` in region 0's output array. -/
theorem V1_arg1 (c : Dev nD) : V1 m ρ c main_arg1 = m ((c : Thread nD τ).loc main_arg1) :=
  W1_of_ne m ρ c main_arg1 (by decide)
theorem V1_arg2 (c : Dev nD) : V1 m ρ c main_arg2 = m ((c : Thread nD τ).loc main_arg2) :=
  (W1_arr m ρ c 1).trans (((dat0 (V0 m ρ) c).arrAt_in 1 rfl _).trans (A_eq0 (V0 m ρ) c 1))
theorem V1_xw (c : Dev nD) :
    V1 m ρ c main_call0_v0 = xwOf (m ((c : Thread nD τ).loc main_arg0)) (m ((c : Thread nD τ).loc main_arg2)) :=
  (W1_arr m ρ c 2).trans (final0 (V0 m ρ) c)

/-- Region 2 finds them as launched too, and the hidden stage in region 1's output array. -/
theorem V2_arg1 (c : Dev nD) : V2 m ρ c main_arg1 = m ((c : Thread nD τ).loc main_arg1) :=
  ((W2_arr m ρ c 0).trans (((dat1 (V1 m ρ) c).arrAt_in 0 rfl _).trans (A_eq1 (V1 m ρ) c 0))).trans (V1_arg1 m ρ c)
theorem V2_arg2 (c : Dev nD) : V2 m ρ c main_arg2 = m ((c : Thread nD τ).loc main_arg2) :=
  ((W2_arr m ρ c 2).trans (((dat1 (V1 m ρ) c).arrAt_in 2 rfl _).trans (A_eq1 (V1 m ρ) c 2))).trans (V1_arg2 m ρ c)
theorem V2_hw (c : Dev nD) :
    V2 m ρ c main_call0_v1 = hwOf (m ((c : Thread nD τ).loc main_arg1))
      (xwOf (m ((c : Thread nD τ).loc main_arg0)) (m ((c : Thread nD τ).loc main_arg2))) (m ((c : Thread nD τ).loc main_arg2)) := by
  refine ((W2_arr m ρ c 3).trans (final1 (V1 m ρ) c)).trans ?_
  rw [V1_arg1, V1_xw, V1_arg2]

/-- Region 2's output array after the run. -/
theorem W3_out (c : Dev nD) :
    W3 m ρ c (Proc.devRef .tc main_call0_v2) = outOf (m ((c : Thread nD τ).loc main_arg1))
      (hwOf (m ((c : Thread nD τ).loc main_arg1))
        (xwOf (m ((c : Thread nD τ).loc main_arg0)) (m ((c : Thread nD τ).loc main_arg2))) (m ((c : Thread nD τ).loc main_arg2)))
      (m ((c : Thread nD τ).loc main_arg2)) := by
  refine ((W3_arr m ρ c 3).trans (final2 (V2 m ρ) c)).trans ?_
  rw [V2_arg1, V2_hw, V2_arg2]

/-- The host's closing slice keeps the first 7 columns: the result buffer ends at the whole network of the arguments. -/
theorem W4_v0 (c : Dev nD) :
    W4 m ρ c (Proc.devRef .tc main_v0)
      = gcn (m ((c : Thread nD τ).loc main_arg0)) (m ((c : Thread nD τ).loc main_arg1)) (m ((c : Thread nD τ).loc main_arg2)) := by
  show StableHlo.after hostOps3 (W3 m ρ c) (Proc.devRef .tc main_v0) = _
  after_results
  show extractStridedSlice S4096x7 ![0, 0] (W3 m ρ c (Proc.devRef .tc main_call0_v2)) slices_S4096x128_S4096x7_0_0 = _
  rw [W3_out]
  funext j
  have hj1 := idx2_lt1 j
  refine extractStridedSlice_apply ![0, 0] _ slices_S4096x128_S4096x7_0_0 j
    (ix2 (j 0) (⟨(j 1).val, by omega⟩ : Fin 128)) (fun a => ?_)
  match a with
  | ⟨0, _⟩ => show (j 0).val = 0 + (j 0).val; omega
  | ⟨1, _⟩ => show (j 1).val = 0 + (j 1).val; omega

/-- The kernel program's run: the result buffer ends at the whole network of the arguments, the arguments as launched. -/
theorem run : θ_run defs (onTc (τ := τ) (main (F := Ideal))) ⟨m, fun _ => 0, ρ⟩ (fun r => ∀ c : Dev nD,
      r.2.mem ((c.tc : Thread nD τ).loc main_v0)
        = gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W4_v0 m ρ c), (h c).2⟩) (Cert.KernelIdeal.Run.run_main m ρ)

end Cert.KernelIdeal.Val

end
-- ==== Proof.LibScatter.lean ====
/-
  A host scatter read at an index, when distinct update positions land on distinct result positions.
-/
import Idealize.ShloMosaic.PureOps.ShapeOps

namespace Cert.LibScatter

open Idealize.ShloMosaic

variable {α : Type} {s si u : Shape} {w : Nat}

section Fold

variable {β ι : Type} [DecidableEq ι]

/-- One step of a pointwise-overwriting fold: position `n` replaces the element at `h n` by that element
    combined with `v n`, and leaves every other element alone. -/
def overwrite (f : α → α → α) (h : β → ι) (v : β → α) (r : ι → α) (n : β) : ι → α :=
  fun i' => if i' = h n then f (r (h n)) (v n) else r i'

/-- Folding the overwriting step over positions none of which lands on `i` leaves the element at `i` alone. -/
theorem foldl_overwrite_miss (f : α → α → α) (h : β → ι) (v : β → α) (i : ι) :
    ∀ (L : List β) (r0 : ι → α), (∀ n ∈ L, h n ≠ i) → L.foldl (overwrite f h v) r0 i = r0 i
  | [], _, _ => rfl
  | a :: L, r0, hL => by
    rw [List.foldl_cons, foldl_overwrite_miss f h v i L _ (fun n hn => hL n (List.mem_cons_of_mem a hn))]
    have ha : i ≠ h a := fun e => hL a List.mem_cons_self e.symm
    simp only [overwrite, if_neg ha]

/-- Folding the overwriting step over a list of distinct positions, with `h` injective: the element at `h n`, for
    `n` in the list, is the starting element there combined with `v n` alone. -/
theorem foldl_overwrite_hit (f : α → α → α) (h : β → ι) (v : β → α) (hinj : Function.Injective h) (n : β) :
    ∀ (L : List β) (r0 : ι → α), L.Nodup → n ∈ L → L.foldl (overwrite f h v) r0 (h n) = f (r0 (h n)) (v n)
  | [], _, _, hn => absurd hn List.not_mem_nil
  | a :: L, r0, hnd, hn => by
    rw [List.foldl_cons]
    obtain ⟨haL, hndL⟩ := List.nodup_cons.mp hnd
    rcases List.mem_cons.mp hn with rfl | hnL
    · -- the head is `n` itself: no later position lands on `h n`
      rw [foldl_overwrite_miss f h v (h n) L _ (fun m hm e => haL (hinj e ▸ hm))]
      simp only [overwrite, if_true]
    · -- `n` comes later: the head lands elsewhere
      rw [foldl_overwrite_hit f h v hinj n L _ hndL hnL]
      have hne : h n ≠ h a := fun e => haL (hinj e ▸ hnL)
      simp only [overwrite, if_neg hne]

end Fold

/-- Where every update position lands inside the operand, at `g j`, the scatter is the fold of the overwriting step
    over all update positions in row-major order. -/
theorem scatter_eq_foldl (d : ScatterDims s si u) (f : α → α → α) (x : s.Idx → α) (idx : IVec si w) (upd : u.Idx → α)
    (g : u.Idx → s.Idx) (hg : ∀ j, d.resultIdx? j idx = some (g j)) :
    Host.scatter d f x idx upd
      = (List.finRange u.numel).foldl
          (overwrite f (fun n => g (u.rowMajor.symm n)) (fun n => upd (u.rowMajor.symm n))) x := by
  unfold Host.scatter
  congr 1
  funext r n
  simp only [hg]
  rfl

/-- Where every update position `j` lands inside the operand, at `g j`, and `g` is injective, the result at `g j` is the
    operand's element there combined with update `j` alone. -/
theorem scatter_hit (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  rw [scatter_eq_foldl d f x idx upd g hg]
  have hinj' : Function.Injective (fun n : Fin u.numel => g (u.rowMajor.symm n)) :=
    hinj.comp u.rowMajor.symm.injective
  have key := foldl_overwrite_hit f (fun n : Fin u.numel => g (u.rowMajor.symm n))
    (fun n => upd (u.rowMajor.symm n)) hinj' (u.rowMajor j) (List.finRange u.numel) x
    (List.nodup_finRange _) (List.mem_finRange _)
  simpa only [Equiv.symm_apply_apply] using key

/-- And a result position no update lands on keeps the operand's element. -/
theorem scatter_miss (d : ScatterDims s si u) (f : α → α → α) (x : s.Idx → α) (idx : IVec si w) (upd : u.Idx → α)
    (g : u.Idx → s.Idx) (hg : ∀ j, d.resultIdx? j idx = some (g j)) (i : s.Idx) (hi : ∀ j, g j ≠ i) :
    Host.scatter d f x idx upd i = x i := by
  rw [scatter_eq_foldl d f x idx upd g hg]
  exact foldl_overwrite_miss f _ _ i _ x (fun n _ => hi _)

end Cert.LibScatter
-- ==== Proof.PadScatter.lean ====
import proofs.«164760_g2000604362070828_pallasbulk_252_1_alg».proof.ReferenceIdeal
import proofs.«164760_g2000604362070828_pallasbulk_252_1_alg».proof.Proof.LibScatter
import Idealize.ShloMosaic.Lib.ValueIdx

/-!
# The reference's column padding, read at an entry

The reference pads the feature matrix to 1536 columns by scattering it, whole, into a `[4096, 1536]` operand at the one
start index `[0]` on the column axis: update entry `(r, k)` lands at `(r, 0 + k)`. So the result holds the update in its
first 1433 columns and the operand elsewhere.
-/

noncomputable section

namespace Cert.ReferenceIdeal.Pad

open Cert.ReferenceIdeal Idealize.ShloMosaic Idealize.ShloMosaic.ValueIdx

section
variable [Facts₀]

/-- Where update entry `(r, k)` lands: at `(r, k)`, the column read among the operand's 1536. -/
def land (j : S4096x1433.Idx) : S4096x1536.Idx :=
  ix2 (j 0) ⟨(j 1).val, Nat.lt_trans (idx2_lt1 j) (by decide)⟩

/-- The row axis is not named by the map from index components to operand axes: its start is `0`. -/
theorem start_row (j : S4096x1433.Idx) (idx : IVec S1 32) :
    scatter_S4096x1536_S1_S4096x1433_01_n_1_0.start j idx 0 = 0 := by
  unfold ScatterDims.start
  have h : ¬ ((0 : Fin S4096x1536.rank) ∈ scatter_S4096x1536_S1_S4096x1433_01_n_1_0.scatterDimsToOperandDims) := by
    show ¬ ((0 : Fin 2) ∈ [(1 : Fin 2)])
    decide
  rw [dif_neg h]

/-- The column axis takes the one index word, which is `0`, read signed. -/
theorem start_col (j : S4096x1433.Idx) (idx : IVec S1 32) (hidx : ∀ j, idx j = 0#32) :
    scatter_S4096x1536_S1_S4096x1433_01_n_1_0.start j idx 1 = 0 := by
  unfold ScatterDims.start
  have h : (1 : Fin S4096x1536.rank) ∈ scatter_S4096x1536_S1_S4096x1433_01_n_1_0.scatterDimsToOperandDims := by
    show (1 : Fin 2) ∈ [(1 : Fin 2)]
    decide
  rw [dif_pos h, hidx]
  rfl

/-- No operand axis is inserted: the window coordinate on the row axis is the update's row … -/
theorem window_row (j : S4096x1433.Idx) :
    scatter_S4096x1536_S1_S4096x1433_01_n_1_0.window j 0 = (j 0).val := by
  unfold ScatterDims.window
  have h : (0 : Fin S4096x1536.rank) ∈ scatter_S4096x1536_S1_S4096x1433_01_n_1_0.sKept := by
    show (0 : Fin 2) ∈ (List.finRange 2).filter (· ∉ ([] : List (Fin 2)))
    decide
  rw [dif_pos h]
  rfl

/-- … and on the column axis the update's column. -/
theorem window_col (j : S4096x1433.Idx) :
    scatter_S4096x1536_S1_S4096x1433_01_n_1_0.window j 1 = (j 1).val := by
  unfold ScatterDims.window
  have h : (1 : Fin S4096x1536.rank) ∈ scatter_S4096x1536_S1_S4096x1433_01_n_1_0.sKept := by
    show (1 : Fin 2) ∈ (List.finRange 2).filter (· ∉ ([] : List (Fin 2)))
    decide
  rw [dif_pos h]
  rfl

/-- Every update entry lands inside the operand: entry `j` at `land j`. -/
theorem resultIdx_eq (j : S4096x1433.Idx) (idx : IVec S1 32) (hidx : ∀ j, idx j = 0#32) :
    scatter_S4096x1536_S1_S4096x1433_01_n_1_0.resultIdx? j idx = some (land j) := by
  have hr := idx2_lt0 j
  have hc := idx2_lt1 j
  have h : ∀ a : Fin S4096x1536.rank,
      0 ≤ scatter_S4096x1536_S1_S4096x1433_01_n_1_0.start j idx a
            + (scatter_S4096x1536_S1_S4096x1433_01_n_1_0.window j a : Int)
        ∧ scatter_S4096x1536_S1_S4096x1433_01_n_1_0.start j idx a
            + (scatter_S4096x1536_S1_S4096x1433_01_n_1_0.window j a : Int) < S4096x1536.size a := by
    intro a
    match a with
    | ⟨0, _⟩ =>
      show 0 ≤ scatter_S4096x1536_S1_S4096x1433_01_n_1_0.start j idx 0
            + (scatter_S4096x1536_S1_S4096x1433_01_n_1_0.window j 0 : Int)
        ∧ scatter_S4096x1536_S1_S4096x1433_01_n_1_0.start j idx 0
            + (scatter_S4096x1536_S1_S4096x1433_01_n_1_0.window j 0 : Int) < (4096 : Nat)
      rw [start_row, window_row]
      omega
    | ⟨1, _⟩ =>
      show 0 ≤ scatter_S4096x1536_S1_S4096x1433_01_n_1_0.start j idx 1
            + (scatter_S4096x1536_S1_S4096x1433_01_n_1_0.window j 1 : Int)
        ∧ scatter_S4096x1536_S1_S4096x1433_01_n_1_0.start j idx 1
            + (scatter_S4096x1536_S1_S4096x1433_01_n_1_0.window j 1 : Int) < (1536 : Nat)
      rw [start_col j idx hidx, window_col]
      omega
  unfold ScatterDims.resultIdx?
  rw [dif_pos h]
  congr 1
  funext a
  apply Fin.ext
  match a with
  | ⟨0, _⟩ =>
    show (scatter_S4096x1536_S1_S4096x1433_01_n_1_0.start j idx 0
            + (scatter_S4096x1536_S1_S4096x1433_01_n_1_0.window j 0 : Int)).toNat = (j 0).val
    rw [start_row, window_row]
    omega
  | ⟨1, _⟩ =>
    show (scatter_S4096x1536_S1_S4096x1433_01_n_1_0.start j idx 1
            + (scatter_S4096x1536_S1_S4096x1433_01_n_1_0.window j 1 : Int)).toNat = (j 1).val
    rw [start_col j idx hidx, window_col]
    omega

/-- Distinct update entries land on distinct operand entries: both coordinates are kept. -/
theorem land_injective : Function.Injective land := by
  intro j j' e
  have e0 : j 0 = j' 0 := congrFun e 0
  have e1 : (land j 1).val = (land j' 1).val := congrArg Fin.val (congrFun e 1)
  funext a
  match a with
  | ⟨0, _⟩ => exact e0
  | ⟨1, _⟩ => exact Fin.ext e1

end
/-- The scatter of the whole `[4096, 1433]` update at column start `0`, read at an entry. -/
theorem scatter_cols [Facts₀] {α : Type} (x0 : S4096x1536.Idx → α) (idx : IVec S1 32) (hidx : ∀ j, idx j = 0#32) (u : S4096x1433.Idx → α)
    (i : S4096x1536.Idx) :
    Host.scatter scatter_S4096x1536_S1_S4096x1433_01_n_1_0 (fun _ b => b) x0 idx u i
      = if h : (i 1).val < 1433 then u (ix2 (i 0) ⟨(i 1).val, h⟩) else x0 i := by
  by_cases h : (i 1).val < 1433
  · -- a column among the first 1433: the entry is the landing place of update entry `(i 0, i 1)`
    rw [dif_pos h]
    have hi : land (ix2 (i 0) ⟨(i 1).val, h⟩) = i := by
      funext a
      match a with
      | ⟨0, _⟩ => rfl
      | ⟨1, _⟩ => rfl
    have key := Cert.LibScatter.scatter_hit scatter_S4096x1536_S1_S4096x1433_01_n_1_0 (fun _ b => b) x0 idx u land
      (fun j => resultIdx_eq j idx hidx) land_injective (ix2 (i 0) ⟨(i 1).val, h⟩)
    rw [hi] at key
    exact key
  · -- a later column: every update entry lands on a column below 1433, so none lands here
    rw [dif_neg h]
    refine Cert.LibScatter.scatter_miss scatter_S4096x1536_S1_S4096x1433_01_n_1_0 (fun _ b => b) x0 idx u land
      (fun j => resultIdx_eq j idx hidx) i ?_
    intro j e
    have e1 : (j 1).val = (i 1).val := congrArg Fin.val (congrFun e 1)
    have hc := idx2_lt1 j
    omega

end Cert.ReferenceIdeal.Pad

end
-- ==== Proof.RefValue.lean ====
import proofs.«164760_g2000604362070828_pallasbulk_252_1_alg».proof.Proof.Gen.ReferenceIdeal.Frame
import proofs.«164760_g2000604362070828_pallasbulk_252_1_alg».proof.Proof.RefRun
import proofs.«164760_g2000604362070828_pallasbulk_252_1_alg».proof.Proof.PadScatter
import proofs.«164760_g2000604362070828_pallasbulk_252_1_alg».proof.Proof.GcnSpec
import Idealize.ShloMosaic.Lib.Pipeline.Value
import Idealize.ShloMosaic.Lib.StableHlo.Run

/-!
# What the reference program computes

The host first pads the features to 1536 columns with zeros. Then two row-tiled regions, four tiles of 1024 rows each:
region 0 recomputes `xpad · W₁` whole (over all 1536 slab rows) at every tile and writes `relu (A · xw + b₁) · W₂`; region 1
reads that whole and writes the row-wise `log_softmax (A · hw + b₂)`; the host keeps the first 7 columns. Per region:
tile `t` of the output is rows `1024 t … 1024 t + 1023` of the stage's whole-array function, and the four tiles cover
the array.
-/

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.ValueIdx Cert.LibGcn Cert.Gcn
open Idealize.ShloMosaic.Pipeline (Dat)

theorem hz : (![0, 0] : Fin 2 → Nat) = fun _ => 0 := funext fun a => by fin_cases a <;> rfl

/-- `x · w` for a whole bf16 matrix `x` and an f32 weight narrowed to bf16, the product narrowed again (every narrowing
    the identity on the extended reals). -/
def xwWhole (M K : Nat) (x : FVec Ideal (Sh M K) .bf16) (w : FVec Ideal (Sh K 128) .f32) : FVec Ideal (Sh M 128) .bf16 :=
  truncf .bf16 (matmul (DotDims.plain M K 128) none x (truncf .bf16 w (by decide)) (constant (Sh M 128) .f32 0x00000000#32))
    (by decide)

theorem xwWhole_apply (M K : Nat) (x : FVec Ideal (Sh M K) .bf16) (w : FVec Ideal (Sh K 128) .f32) (p : Fin M) (l : Fin 128) :
    xwWhole M K x w (ix2 p l) = dotRow (fun k => x (ix2 p k)) (fun k j => w (ix2 k j)) l := by
  unfold xwWhole dotRow
  rw [truncf_apply, Cert.LibDense.matmul_plain_zero_apply]
  rfl

/-! ## The host operations before region 0 -/

section HostPrefix

variable {F : FTy → Type} [FloatOps F]

/-- The host operations before region 0 with the padding step a PARAMETER `g` (the program's is a scatter, which is read
    through its entry lemma only and never unfolded: it is a fold over all 4096 · 1433 update entries). -/
def padOps (g : BufTy.Contents (Elt F) ⟨S4096x1536, .bf16⟩ → BufTy.Contents (Elt F) ⟨S1, .i32⟩
      → BufTy.Contents (Elt F) ⟨S4096x1433, .bf16⟩ → BufTy.Contents (Elt F) ⟨S4096x1536, .bf16⟩) :
    List (HloOp τ sig (Elt F)) :=
  [ StableHlo.TRef.nullary (.of main_call0_cst : StableHlo.TRef sig ⟨S_, .bf16⟩) (constant S_ .bf16 0x0000#16),
    StableHlo.TRef.unary (.of main_call0_cst : StableHlo.TRef sig ⟨S_, .bf16⟩) (.of main_call0_v0 : StableHlo.TRef sig ⟨S4096x1536, .bf16⟩) (broadcastInDim S4096x1536 ![] bcast_S_S4096x1536),
    StableHlo.TRef.unary (.of main_arg0 : StableHlo.TRef sig ⟨S4096x1433, .f32⟩) (.of main_call0_v1 : StableHlo.TRef sig ⟨S4096x1433, .bf16⟩) (truncf .bf16 · bitsLt_bf16_f32),
    StableHlo.TRef.nullary (.of main_call0_c : StableHlo.TRef sig ⟨S_, .i32⟩) (constantI S_ 32 0#32),
    StableHlo.TRef.unary (.of main_call0_c : StableHlo.TRef sig ⟨S_, .i32⟩) (.of main_call0_v2 : StableHlo.TRef sig ⟨S1, .i32⟩) (broadcastInDim S1 ![] bcast_S_S1),
    StableHlo.TRef.ternary (.of main_call0_v0 : StableHlo.TRef sig ⟨S4096x1536, .bf16⟩) (.of main_call0_v2 : StableHlo.TRef sig ⟨S1, .i32⟩) (.of main_call0_v1 : StableHlo.TRef sig ⟨S4096x1433, .bf16⟩) (.of main_call0_v3 : StableHlo.TRef sig ⟨S4096x1536, .bf16⟩) g ]

/-- The program's host operations are those, the padding step the scatter at column 0. -/
theorem hostOps0_eq : (hostOps0 (F := F) : List (HloOp τ sig (Elt F)))
    = padOps (fun x i u => Host.scatter scatter_S4096x1536_S1_S4096x1433_01_n_1_0 (fun _ b => b) x i u) := rfl

/-- After them the padded buffer holds the padding step of the zero splat, the one zero index word and the (narrowed)
    features. -/
theorem padOps_v3 (g : BufTy.Contents (Elt F) ⟨S4096x1536, .bf16⟩ → BufTy.Contents (Elt F) ⟨S1, .i32⟩
      → BufTy.Contents (Elt F) ⟨S4096x1433, .bf16⟩ → BufTy.Contents (Elt F) ⟨S4096x1536, .bf16⟩)
    (W : Valuation τ sig (Elt F)) :
    StableHlo.after (padOps g) W (Proc.devRef .tc main_call0_v3)
      = g (broadcastInDim S4096x1536 ![] bcast_S_S4096x1536 (constant (F := F) S_ .bf16 0x0000#16))
          (broadcastInDim S1 ![] bcast_S_S1 (constantI S_ 32 0#32))
          (truncf .bf16 (W (Proc.devRef .tc main_arg0)) bitsLt_bf16_f32) := by
  unfold padOps
  after_results
  rfl

end HostPrefix

section Regions

variable (V : (c : Dev nD) → (b : Ref sig .tc) → Buf (Elt Ideal) ((c : Thread nD τ).loc b))

/-! ## Region 0: `relu (A · (xpad · W₁) + b₁) · W₂` -/

/-- The body's payload is the hidden-layer tile body over the product `xpad · W₁` it computes first (the cast of the
    staged `xpad` to its own shape is the identity). -/
theorem pay0_eq (v0 : Vec Ideal S1536x128 .f32) (v2 : Vec Ideal S1x128 .f32) (v3 : Vec Ideal S128x128 .f32)
    (v5 : Vec Ideal S4096x1536 .bf16) (v8 : Vec Ideal S1024x4096 .bf16) :
    k0_pay1 v0 v2 v3 v5 v8 = hidTile 1024 4096 broadcasts_S1x128_S1024x128 v2 v3 v8 (xwWhole 4096 1536 v5 v0) := by
  show hidTile 1024 4096 broadcasts_S1x128_S1024x128 v2 v3 v8
    (xwWhole 4096 1536 (shapeCast S4096x1536 v5 shapeCasts_S4096x1536_S4096x1536) v0) = _
  rw [shapeCast_self]

/-- The index maps over the grid: the adjacency tile and the output tile move down with the point, the rest stays. -/
theorem idx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a tile: with the adjacency tile's row `y 0` being row `i 0` of the adjacency matrix and the other two
    operands staged whole, entry `y` of the tile body is entry `i` of the stage over the padded product. -/
theorem point0 (A : Mat 4096 4096) (XP : Mat 4096 1536) (S : Mat 1680 128) (x0 : Vec Ideal S4096x1536 .bf16)
    (x1 : Vec Ideal S1024x4096 .bf16) (x2 : Vec Ideal S1680x128 .f32) (y : S1024x128.Idx) (i : S4096x128.Idx)
    (hx0 : ∀ z : S4096x1536.Idx, x0 z = XP z) (hx1 : ∀ q : Fin 4096, x1 (ix2 (y 0) q) = A (ix2 (i 0) q))
    (hx2 : ∀ z : S1680x128.Idx, x2 z = S z) (hl : y 1 = i 1) :
    hidTile 1024 4096 broadcasts_S1x128_S1024x128 (View.ld x2 r0_1) (View.ld x2 r0_2) (View.ld x1 r0_4)
        (xwWhole 4096 1536 (View.ld x0 r0_3) (View.ld x2 r0_0)) y
      = hwOf A (xwPadOf XP S) S i := by
  obtain ⟨p, l, rfl⟩ : ∃ (p : Fin 1024) (l : Fin 128), y = ix2 p l := ⟨y 0, y 1, eq_ix2 y⟩
  rw [hidTile_apply]
  refine hidRow_congr (fun q => ?_) (fun q j => ?_) (fun j => ?_) (fun j k => ?_) hl
  · show x1 (r0_4.idx (ix2 p q)) = _
    rw [← hx1 q]
    refine congrArg x1 (funext fun a => Fin.ext ?_)
    match a with
    | ⟨0, _⟩ => show 0 + 1 * p.val = p.val; omega
    | ⟨1, _⟩ => show 0 + 1 * q.val = q.val; omega
  · -- entry (q, j) of the product the body computes is entry (q, j) of the padded product
    rw [xwWhole_apply]
    refine dotRow_congr (fun k => ?_) (fun k j' => ?_) rfl
    · show x0 (r0_3.idx (ix2 q k)) = XP (ix2 q k)
      rw [hx0]
      refine congrArg XP (funext fun a => Fin.ext ?_)
      match a with
      | ⟨0, _⟩ => show 0 + 1 * q.val = q.val; omega
      | ⟨1, _⟩ => show 0 + 1 * k.val = k.val; omega
    · show x2 (r0_0.idx (ix2 k j')) = S (ix2 ⟨0 + k.val, _⟩ j')
      rw [hx2]
      refine congrArg S (funext fun a => Fin.ext ?_)
      match a with
      | ⟨0, _⟩ => show 0 + 1 * k.val = 0 + k.val; omega
      | ⟨1, _⟩ => show 0 + 1 * j'.val = j'.val; omega
  · show x2 (r0_1.idx (ix2 (0 : Fin 1) j)) = S (ix2 ⟨1536 + (0 : Fin 1).val, _⟩ j)
    rw [hx2]
    refine congrArg S (funext fun a => Fin.ext ?_)
    match a with
    | ⟨0, _⟩ => show 1536 + 1 * 0 = 1536 + 0; omega
    | ⟨1, _⟩ => show 0 + 1 * j.val = j.val; omega
  · show x2 (r0_2.idx (ix2 j k)) = S (ix2 ⟨1544 + j.val, _⟩ k)
    rw [hx2]
    refine congrArg S (funext fun a => Fin.ext ?_)
    match a with
    | ⟨0, _⟩ => show 1544 + 1 * j.val = 1544 + j.val; omega
    | ⟨1, _⟩ => show 0 + 1 * k.val = k.val; omega

/-- What point `t` writes back is tile `t` of the stage. -/
theorem flushed0_eq (c : Dev nD) (t : Fin cfg0.N) :
    (dat0 V c).flushed 3 t = ((cfg0.win 3).blk t).view.read (Elt Ideal)
      (hwOf (V c main_arg1) (xwPadOf (V c main_call0_v3) (V c main_arg2)) (V c main_arg2)) := by
  show (cfg0.win 3).cut (grid0.coords t) ((dat0 V c).after 3 t) = _
  rw [after0_3]
  unfold out0_3
  rw [View.canon_unit_zero hz, pay0_eq]
  obtain ⟨e00, e01, e10, e11, e20, e21, eo0, eo1⟩ := idx0 t
  funext y
  have hy0 : (y 0).val < 1024 := (y 0).isLt
  have hy1 : (y 1).val < 128 := (y 1).isLt
  show hidTile 1024 4096 broadcasts_S1x128_S1024x128 (View.ld (iblk0 V c 2 t) r0_1) (View.ld (iblk0 V c 2 t) r0_2)
      (View.ld (iblk0 V c 1 t) r0_4) (xwWhole 4096 1536 (View.ld (iblk0 V c 0 t) r0_3) (View.ld (iblk0 V c 2 t) r0_0))
      ((cfg0.win 3).xinj (grid0.coords t) y)
    = hwOf (V c main_arg1) (xwPadOf (V c main_call0_v3) (V c main_arg2)) (V c main_arg2) (((cfg0.win 3).blk t).view.emb y)
  refine point0 (V c main_arg1) (V c main_call0_v3) (V c main_arg2) (iblk0 V c 0 t) (iblk0 V c 1 t) (iblk0 V c 2 t)
    ((cfg0.win 3).xinj (grid0.coords t) y) (((cfg0.win 3).blk t).view.emb y) (fun z => ?_) (fun q => ?_) (fun z => ?_) (Fin.ext ?_)
  · show V c main_call0_v3 (((cfg0.win 0).blk t).view.emb z) = V c main_call0_v3 z
    refine congrArg (V c main_call0_v3) (funext fun a => Fin.ext ?_)
    match a with
    | ⟨0, _⟩ =>
      show win0_0.index t (0 : Fin 2) * 4096 + 1 * (z 0).val = (z 0).val
      rw [e00]; omega
    | ⟨1, _⟩ =>
      show win0_0.index t (1 : Fin 2) * 1536 + 1 * (z 1).val = (z 1).val
      rw [e01]; omega
  · show V c main_arg1 (((cfg0.win 1).blk t).view.emb (ix2 ((cfg0.win 3).xinj (grid0.coords t) y 0) q)) = _
    refine congrArg (V c main_arg1) (funext fun a => Fin.ext ?_)
    have hq := q.isLt
    match a with
    | ⟨0, _⟩ =>
      show win0_1.index t (0 : Fin 2) * 1024 + 1 * (y 0).val = win0_3.index t (0 : Fin 2) * 1024 + 1 * (y 0).val
      rw [e10, eo0]
    | ⟨1, _⟩ =>
      show win0_1.index t (1 : Fin 2) * 4096 + 1 * q.val = q.val
      rw [e11]; omega
  · show V c main_arg2 (((cfg0.win 2).blk t).view.emb z) = V c main_arg2 z
    refine congrArg (V c main_arg2) (funext fun a => Fin.ext ?_)
    match a with
    | ⟨0, _⟩ =>
      show win0_2.index t (0 : Fin 2) * 1680 + 1 * (z 0).val = (z 0).val
      rw [e20]; omega
    | ⟨1, _⟩ =>
      show win0_2.index t (1 : Fin 2) * 128 + 1 * (z 1).val = (z 1).val
      rw [e21]; omega
  · show (y 1).val = win0_3.index t (1 : Fin 2) * 128 + 1 * (y 1).val
    rw [eo1]; omega

theorem mem_blk0 (t : Fin cfg0.N) (i : S4096x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_call0_v4).slice (win0_3.rect t)).set ↔ _
  rw [View.set_slice_whole, Rect.mem_set_unit]
  exact Iff.rfl

/-- Row `r` lies in tile `r / 1024`: the tiles cover the array. -/
theorem cover0 (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  have ht : (i 0).val / 1024 < 4 := by omega
  refine ⟨⟨(i 0).val / 1024, ht⟩, flush0_3 _, ?_⟩
  rw [mem_blk0]
  obtain ⟨-, -, -, -, -, -, eo0, eo1⟩ := idx0 ⟨(i 0).val / 1024, ht⟩
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [eo0]
    show (i 0).val / 1024 * 1024 ≤ (i 0).val ∧ (i 0).val < (i 0).val / 1024 * 1024 + 1024
    omega
  | ⟨1, _⟩ =>
    show win0_3.index ⟨(i 0).val / 1024, ht⟩ (1 : Fin 2) * 128 ≤ (i 1).val
      ∧ (i 1).val < win0_3.index ⟨(i 0).val / 1024, ht⟩ (1 : Fin 2) * 128 + 128
    rw [eo1]; omega

/-- Region 0 leaves the hidden stage over the padded product in its output array. -/
theorem final0 (c : Dev nD) :
    (dat0 V c).arrAt 3 cfg0.N = hwOf (V c main_arg1) (xwPadOf (V c main_call0_v3) (V c main_arg2)) (V c main_arg2) :=
  (dat0 V c).arrAt_eq_of_cover 3 _ (fun t _ => flushed0_eq V c t) cover0

/-! ## Region 1: the row-wise `log_softmax (A · hw + b₂)` -/

/-- The body's payload is the output tile body. -/
theorem pay1_eq (v0 : Vec Ideal S1x128 .f32) (v1 : Vec Ideal S1024x4096 .bf16) (v2 : Vec Ideal S4096x128 .bf16) :
    k1_pay1 v0 v1 v2 = lsmTile 1024 4096 broadcasts_S1x128_S1024x128 reduces_S1024x128_S1024 shapeCasts_S1024_S1024x1
      broadcasts_S1024x1_S1024x128 v0 v1 v2 := by
  show lsmTile 1024 4096 broadcasts_S1x128_S1024x128 reduces_S1024x128_S1024 shapeCasts_S1024_S1024x1
      broadcasts_S1024x1_S1024x128 v0 v1 (shapeCast S4096x128 v2 shapeCasts_S4096x128_S4096x128) = _
  rw [shapeCast_self]

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point1 (A : Mat 4096 4096) (HW : Mat 4096 128) (S : Mat 1680 128) (x0 : Vec Ideal S1024x4096 .bf16)
    (x1 : Vec Ideal S4096x128 .bf16) (x2 : Vec Ideal S1680x128 .f32) (y : S1024x128.Idx) (i : S4096x128.Idx)
    (hx0 : ∀ q : Fin 4096, x0 (ix2 (y 0) q) = A (ix2 (i 0) q)) (hx1 : ∀ z : S4096x128.Idx, x1 z = HW z)
    (hx2 : ∀ z : S1680x128.Idx, x2 z = S z) (hl : y 1 = i 1) :
    lsmTile 1024 4096 broadcasts_S1x128_S1024x128 reduces_S1024x128_S1024 shapeCasts_S1024_S1024x1 broadcasts_S1024x1_S1024x128
        (View.ld x2 r1_0) (View.ld x0 r1_1) (View.ld x1 r1_2) y
      = outOf A HW S i := by
  obtain ⟨p, l, rfl⟩ : ∃ (p : Fin 1024) (l : Fin 128), y = ix2 p l := ⟨y 0, y 1, eq_ix2 y⟩
  rw [lsmTile_apply]
  refine outRow_congr (fun q => ?_) (fun q j => ?_) (fun j => ?_) hl
  · show x0 (r1_1.idx (ix2 p q)) = _
    rw [← hx0 q]
    refine congrArg x0 (funext fun a => Fin.ext ?_)
    match a with
    | ⟨0, _⟩ => show 0 + 1 * p.val = p.val; omega
    | ⟨1, _⟩ => show 0 + 1 * q.val = q.val; omega
  · show x1 (r1_2.idx (ix2 q j)) = HW (ix2 q j)
    rw [hx1]
    refine congrArg HW (funext fun a => Fin.ext ?_)
    match a with
    | ⟨0, _⟩ => show 0 + 1 * q.val = q.val; omega
    | ⟨1, _⟩ => show 0 + 1 * j.val = j.val; omega
  · show x2 (r1_0.idx (ix2 (0 : Fin 1) j)) = S (ix2 ⟨1672 + (0 : Fin 1).val, _⟩ j)
    rw [hx2]
    refine congrArg S (funext fun a => Fin.ext ?_)
    match a with
    | ⟨0, _⟩ => show 1672 + 1 * 0 = 1672 + 0; omega
    | ⟨1, _⟩ => show 0 + 1 * j.val = j.val; omega

theorem flushed1_eq (c : Dev nD) (t : Fin cfg1.N) :
    (dat1 V c).flushed 3 t
      = ((cfg1.win 3).blk t).view.read (Elt Ideal) (outOf (V c main_arg1) (V c main_call0_v4) (V c main_arg2)) := by
  show (cfg1.win 3).cut (grid1.coords t) ((dat1 V c).after 3 t) = _
  rw [after1_3]
  unfold out1_3
  rw [View.canon_unit_zero hz, pay1_eq]
  obtain ⟨e00, e01, e10, e11, e20, e21, eo0, eo1⟩ := idx1 t
  funext y
  have hy0 : (y 0).val < 1024 := (y 0).isLt
  have hy1 : (y 1).val < 128 := (y 1).isLt
  show lsmTile 1024 4096 broadcasts_S1x128_S1024x128 reduces_S1024x128_S1024 shapeCasts_S1024_S1024x1 broadcasts_S1024x1_S1024x128
      (View.ld (iblk1 V c 2 t) r1_0) (View.ld (iblk1 V c 0 t) r1_1) (View.ld (iblk1 V c 1 t) r1_2)
      ((cfg1.win 3).xinj (grid1.coords t) y)
    = outOf (V c main_arg1) (V c main_call0_v4) (V c main_arg2) (((cfg1.win 3).blk t).view.emb y)
  refine point1 (V c main_arg1) (V c main_call0_v4) (V c main_arg2) (iblk1 V c 0 t) (iblk1 V c 1 t) (iblk1 V c 2 t)
    ((cfg1.win 3).xinj (grid1.coords t) y) (((cfg1.win 3).blk t).view.emb y) (fun q => ?_) (fun z => ?_) (fun z => ?_) (Fin.ext ?_)
  · show V c main_arg1 (((cfg1.win 0).blk t).view.emb (ix2 ((cfg1.win 3).xinj (grid1.coords t) y 0) q)) = _
    refine congrArg (V c main_arg1) (funext fun a => Fin.ext ?_)
    have hq := q.isLt
    match a with
    | ⟨0, _⟩ =>
      show win1_0.index t (0 : Fin 2) * 1024 + 1 * (y 0).val = win1_3.index t (0 : Fin 2) * 1024 + 1 * (y 0).val
      rw [e00, eo0]
    | ⟨1, _⟩ =>
      show win1_0.index t (1 : Fin 2) * 4096 + 1 * q.val = q.val
      rw [e01]; omega
  · show V c main_call0_v4 (((cfg1.win 1).blk t).view.emb z) = V c main_call0_v4 z
    refine congrArg (V c main_call0_v4) (funext fun a => Fin.ext ?_)
    match a with
    | ⟨0, _⟩ =>
      show win1_1.index t (0 : Fin 2) * 4096 + 1 * (z 0).val = (z 0).val
      rw [e10]; omega
    | ⟨1, _⟩ =>
      show win1_1.index t (1 : Fin 2) * 128 + 1 * (z 1).val = (z 1).val
      rw [e11]; omega
  · show V c main_arg2 (((cfg1.win 2).blk t).view.emb z) = V c main_arg2 z
    refine congrArg (V c main_arg2) (funext fun a => Fin.ext ?_)
    match a with
    | ⟨0, _⟩ =>
      show win1_2.index t (0 : Fin 2) * 1680 + 1 * (z 0).val = (z 0).val
      rw [e20]; omega
    | ⟨1, _⟩ =>
      show win1_2.index t (1 : Fin 2) * 128 + 1 * (z 1).val = (z 1).val
      rw [e21]; omega
  · show (y 1).val = win1_3.index t (1 : Fin 2) * 128 + 1 * (y 1).val
    rw [eo1]; omega

theorem mem_blk1 (t : Fin cfg1.N) (i : S4096x128.Idx) :
    i ∈ ((cfg1.win 3).blk t).view.set ↔ ∀ a : Fin 2, win1_3.index t a * S1024x128.size a ≤ (i a).val
      ∧ (i a).val < win1_3.index t a * S1024x128.size a + S1024x128.size a := by
  show i ∈ ((View.whole main_call0_v5).slice (win1_3.rect t)).set ↔ _
  rw [View.set_slice_whole, Rect.mem_set_unit]
  exact Iff.rfl

/-- Row `r` lies in tile `r / 1024`: the tiles cover the array. -/
theorem cover1 (i : S4096x128.Idx) : ∃ t : Fin cfg1.N, (cfg1.win 3).flush t = true ∧ i ∈ ((cfg1.win 3).blk t).view.set := by
  have hi0 : (i 0).val < 4096 := (i 0).isLt
  have hi1 : (i 1).val < 128 := (i 1).isLt
  have ht : (i 0).val / 1024 < 4 := by omega
  refine ⟨⟨(i 0).val / 1024, ht⟩, flush1_3 _, ?_⟩
  rw [mem_blk1]
  obtain ⟨-, -, -, -, -, -, eo0, eo1⟩ := idx1 ⟨(i 0).val / 1024, ht⟩
  intro a
  match a with
  | ⟨0, _⟩ =>
    show win1_3.index ⟨(i 0).val / 1024, ht⟩ (0 : Fin 2) * 1024 ≤ (i 0).val
      ∧ (i 0).val < win1_3.index ⟨(i 0).val / 1024, ht⟩ (0 : Fin 2) * 1024 + 1024
    rw [eo0]
    show (i 0).val / 1024 * 1024 ≤ (i 0).val ∧ (i 0).val < (i 0).val / 1024 * 1024 + 1024
    omega
  | ⟨1, _⟩ =>
    show win1_3.index ⟨(i 0).val / 1024, ht⟩ (1 : Fin 2) * 128 ≤ (i 1).val
      ∧ (i 1).val < win1_3.index ⟨(i 0).val / 1024, ht⟩ (1 : Fin 2) * 128 + 128
    rw [eo1]; omega

/-- Region 1 leaves the row-wise `log_softmax (A · hw + b₂)` in its output array, `hw` being what it found in region 0's. -/
theorem final1 (c : Dev nD) :
    (dat1 V c).arrAt 3 cfg1.N = outOf (V c main_arg1) (V c main_call0_v4) (V c main_arg2) :=
  (dat1 V c).arrAt_eq_of_cover 3 _ (fun t _ => flushed1_eq V c t) cover1

end Regions

/-! ## The run: the host's padding, then the stages chained through the boundaries' contents -/

variable (m : (ℓ : Loc nD τ sig) → Buf (Elt Ideal) ℓ) (ρ : Dev nD → PrngReg)

/-- The host operations before region 0 leave the arguments alone … -/
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results

/-- … and put the features, padded with zero columns to width 1536, in the buffer region 0 stages whole: the scatter
    of the (narrowed, hence unchanged) features into the zero splat at column 0. -/
theorem V1_xpad (c : Dev nD) : V1 m ρ c main_call0_v3 = padCols (m ((c : Thread nD τ).loc main_arg0)) := by
  show StableHlo.after hostOps0 (W0 m ρ c) (Proc.devRef .tc main_call0_v3) = _
  rw [hostOps0_eq, padOps_v3]
  funext i
  show Host.scatter scatter_S4096x1536_S1_S4096x1433_01_n_1_0 (fun _ b => b)
      (broadcastInDim S4096x1536 ![] bcast_S_S4096x1536 (constant (F := Ideal) S_ .bf16 0x0000#16))
      (broadcastInDim S1 ![] bcast_S_S1 (constantI S_ 32 0#32))
      (truncf .bf16 (W0 m ρ c (Proc.devRef .tc main_arg0)) bitsLt_bf16_f32) i = _
  rw [Cert.ReferenceIdeal.Pad.scatter_cols _ (broadcastInDim S1 ![] bcast_S_S1 (constantI S_ 32 0#32)) (fun _ => rfl)]
  unfold padCols
  by_cases h : (i 1).val < 1433
  · rw [dif_pos h, dif_pos h]
    rfl
  · rw [dif_neg h, dif_neg h]
    -- an entry of the zero splat
    show Ideal.ofBits .bf16 0x0000#16 = 0
    exact IdealRules.sign_bit.ideal_zero .bf16

/-- Region 1 finds the adjacency matrix and the slab as launched, and the hidden stage in region 0's output array. -/
theorem V2_arg1 (c : Dev nD) : V2 m ρ c main_arg1 = m ((c : Thread nD τ).loc main_arg1) :=
  ((W2_arr m ρ c 1).trans (((dat0 (V1 m ρ) c).arrAt_in 1 rfl _).trans (A_eq0 (V1 m ρ) c 1))).trans (V1_arg1 m ρ c)
theorem V2_arg2 (c : Dev nD) : V2 m ρ c main_arg2 = m ((c : Thread nD τ).loc main_arg2) :=
  ((W2_arr m ρ c 2).trans (((dat0 (V1 m ρ) c).arrAt_in 2 rfl _).trans (A_eq0 (V1 m ρ) c 2))).trans (V1_arg2 m ρ c)
theorem V2_hw (c : Dev nD) :
    V2 m ρ c main_call0_v4 = hwOf (m ((c : Thread nD τ).loc main_arg1))
      (xwOf (m ((c : Thread nD τ).loc main_arg0)) (m ((c : Thread nD τ).loc main_arg2))) (m ((c : Thread nD τ).loc main_arg2)) := by
  refine ((W2_arr m ρ c 3).trans (final0 (V1 m ρ) c)).trans ?_
  rw [V1_arg1, V1_xpad, V1_arg2, xwPadOf_padCols]

/-- Region 1's output array after the run. -/
theorem W3_out (c : Dev nD) :
    W3 m ρ c (Proc.devRef .tc main_call0_v5) = outOf (m ((c : Thread nD τ).loc main_arg1))
      (hwOf (m ((c : Thread nD τ).loc main_arg1))
        (xwOf (m ((c : Thread nD τ).loc main_arg0)) (m ((c : Thread nD τ).loc main_arg2))) (m ((c : Thread nD τ).loc main_arg2)))
      (m ((c : Thread nD τ).loc main_arg2)) := by
  refine ((W3_arr m ρ c 3).trans (final1 (V2 m ρ) c)).trans ?_
  rw [V2_arg1, V2_hw, V2_arg2]

/-- The host's closing slice keeps the first 7 columns: the result buffer ends at the whole network of the arguments. -/
theorem W4_v0 (c : Dev nD) :
    W4 m ρ c (Proc.devRef .tc main_v0)
      = gcn (m ((c : Thread nD τ).loc main_arg0)) (m ((c : Thread nD τ).loc main_arg1)) (m ((c : Thread nD τ).loc main_arg2)) := by
  show StableHlo.after hostOps2 (W3 m ρ c) (Proc.devRef .tc main_v0) = _
  after_results
  show extractStridedSlice S4096x7 ![0, 0] (W3 m ρ c (Proc.devRef .tc main_call0_v5)) slices_S4096x128_S4096x7_0_0 = _
  rw [W3_out]
  funext j
  have hj1 := idx2_lt1 j
  refine extractStridedSlice_apply ![0, 0] _ slices_S4096x128_S4096x7_0_0 j
    (ix2 (j 0) (⟨(j 1).val, by omega⟩ : Fin 128)) (fun a => ?_)
  match a with
  | ⟨0, _⟩ => show (j 0).val = 0 + (j 0).val; omega
  | ⟨1, _⟩ => show (j 1).val = 0 + (j 1).val; omega

/-- The reference program's run: the result buffer ends at the whole network of the arguments, the arguments as launched. -/
theorem run : θ_run defs (onTc (τ := τ) (main (F := Ideal))) ⟨m, fun _ => 0, ρ⟩ (fun r => ∀ c : Dev nD,
      r.2.mem ((c.tc : Thread nD τ).loc main_v0)
        = gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W4_v0 m ρ c), (h c).2⟩) (Cert.ReferenceIdeal.Run.run_main m ρ)

end Cert.ReferenceIdeal.Val

end
-- ==== Proof.lean ====
/-
  Two programs for one two-layer graph convolution on 4096 nodes,

    out = log_softmax (A · (relu (A · (x · W₁) + b₁) · W₂) + b₂),   the first 7 of 128 class lanes returned,

  with the parameters packed in one `[1680, 128]` slab (rows 0 … 1535 the first weight, of which only the first 1433 meet a
  feature column; row 1536 the first bias; rows 1544 … 1671 the second weight; row 1672 the second bias).
  The kernel computes `x · W₁` once, in a region of its own over the 1433 real feature columns, and then the two layers in
  tiles of 512 rows of `A`. The reference pads `x` with zero columns to width 1536, recomputes `xpad · W₁` inside every
  tile of its first region, and works in tiles of 1024 rows.
  On the extended reals every narrowing to bf16 is the identity, a matrix product into the zero accumulator is the plain
  sum of products, and the lane maximum, the lane sum, `exp` and `log` act on each row by itself. So entry `(n, l)` of
  every stage is ONE function of row `n` of `A` and of the previous stage, whatever the tile height (`Cert.LibGcn`), and
  both programs' result buffers end at that function of the arguments (`Cert.Gcn.gcn`): the two differ only in the padded
  dot product, whose extra terms are `0 · w = 0` (`Cert.Gcn.xwPadOf_padCols`; no finiteness is needed: `0 · w = 0` for every
  extended real `w`). The idealized kernel is the kernel's own text read on the extended reals — no operation was replaced —,
  so the idealization claim has nothing to state.
-/
import proofs.«164760_g2000604362070828_pallasbulk_252_1_alg».proof.Defs
import proofs.«164760_g2000604362070828_pallasbulk_252_1_alg».proof.Proof.Gen.Kernel
import proofs.«164760_g2000604362070828_pallasbulk_252_1_alg».proof.Proof.Gen.Kernel.Frame
import proofs.«164760_g2000604362070828_pallasbulk_252_1_alg».proof.Proof.Gen.KernelIdeal
import proofs.«164760_g2000604362070828_pallasbulk_252_1_alg».proof.Proof.Gen.KernelIdeal.Frame
import proofs.«164760_g2000604362070828_pallasbulk_252_1_alg».proof.Proof.Gen.ReferenceIdeal
import proofs.«164760_g2000604362070828_pallasbulk_252_1_alg».proof.Proof.Gen.ReferenceIdeal.Frame
import proofs.«164760_g2000604362070828_pallasbulk_252_1_alg».proof.Proof.Gen.Pre_finite_inputs
import proofs.«164760_g2000604362070828_pallasbulk_252_1_alg».proof.Proof.KernelValue
import proofs.«164760_g2000604362070828_pallasbulk_252_1_alg».proof.Proof.RefValue
import Idealize.ShloMosaic.Adequacy
import Idealize.ShloMosaic.Init

noncomputable section

namespace Cert.Proof

open Idealize.ShloMosaic Idealize.SL.Sem

/-- Each program runs to the end without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- No operation of the kernel was replaced in its idealization. -/
theorem preserves : Cert.preserves_Kernel_KernelIdeal := trivial

/-- From memories agreeing on the arguments both programs end with the result buffer at the network `gcn` of the
    arguments, hence with equal results. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun r h c => ⟨(h c).1.trans ?_, (h c).2⟩)
    (Cert.ReferenceIdeal.Val.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
